-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16x128 : Shape := ⟨3, ![65536, 16, 128]⟩
abbrev S256x256 : Shape := ⟨2, ![256, 256]⟩
abbrev S256 : Shape := ⟨1, ![256]⟩
abbrev S256x1 : Shape := ⟨2, ![256, 1]⟩
abbrev S_ : Shape := ⟨0, ![]⟩

class Facts : Prop where
  bcast_S_S65536x16x128 : S_.BroadcastsInDim S65536x16x128 (![] : Fin 0 → Fin S65536x16x128.rank)
  reducesTo_S65536x16x128_S_d0_1_2 : S65536x16x128.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg4 : FVec F S256 .f32) (main_arg5 : FVec F S256x1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  main_v28

def fn {F : FTy → Type} [FloatOps F] (main_arg0 : FVec F S65536x16x128 .f32) (main_arg1 : FVec F S256x256 .f32) (main_arg2 : FVec F S256 .f32) (main_arg3 : FVec F S256x256 .f32) (main_arg4 : FVec F S256 .f32) (main_arg5 : FVec F S256x1 .f32) : IVec S_ 1 :=
  let main_v0 : FVec F S65536x16x128 .f32 := Host.absf main_arg0
  let main_cst : FVec F S_ .f32 := constant S_ .f32 0x7F800000#32
  let main_v1 : FVec F S65536x16x128 .f32 := broadcastInDim S65536x16x128 ![] bcast_S_S65536x16x128 main_cst
  let main_v2 : IVec S65536x16x128 1 := cmpf .olt main_v0 main_v1
  let main_c : IVec S_ 1 := constantI S_ 1 1#1
  let main_v3 : IVec S_ 1 := (fun x v => Host.reduce IntOp.andi x v reducesTo_S65536x16x128_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S65536x16x128 : Shape := ⟨3, ![65536, 16, 128]⟩
abbrev S256x256 : Shape := ⟨2, ![256, 256]⟩
abbrev S256 : Shape := ⟨1, ![256]⟩
abbrev S256x1 : Shape := ⟨2, ![256, 1]⟩
abbrev S65536x1x128 : Shape := ⟨3, ![65536, 1, 128]⟩
abbrev S65536x128 : Shape := ⟨2, ![65536, 128]⟩
abbrev S1x256 : Shape := ⟨2, ![1, 256]⟩
abbrev S65536x256 : Shape := ⟨2, ![65536, 256]⟩
abbrev S1024x128 : Shape := ⟨2, ![1024, 128]⟩
abbrev S1024x256 : Shape := ⟨2, ![1024, 256]⟩

abbrev nBuf : Space → Nat
  | .hbm => 13
  | .vmem => 11
  | .smem => 0
  | _ => 0

abbrev bufTy : (tb : Table) → Fin (tcTables nBuf tb) → BufTy
  | .hbm, ⟨0, _⟩ => ⟨S65536x16x128, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x1, .f32⟩
  | .hbm, ⟨6, _⟩ => ⟨S65536x1x128, .f32⟩
  | .hbm, ⟨7, _⟩ => ⟨S65536x128, .f32⟩
  | .hbm, ⟨8, _⟩ => ⟨S65536x1x128, .f32⟩
  | .hbm, ⟨9, _⟩ => ⟨S65536x128, .f32⟩
  | .hbm, ⟨10, _⟩ => ⟨S1x256, .f32⟩
  | .hbm, ⟨11, _⟩ => ⟨S1x256, .f32⟩
  | .hbm, ⟨12, _⟩ => ⟨S65536x256, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x1, .f32⟩
  | .local _ .vmem, ⟨9, _⟩ => ⟨S1024x256, .f32⟩
  | .local _ .vmem, ⟨10, _⟩ => ⟨S1024x256, .f32⟩
  | _, _ => ⟨S65536x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S65536x16x128_S65536x1x128_0_15_0 : S65536x16x128.Slices ![0, 15, 0] S65536x1x128
  shapeCasts_S65536x1x128_S65536x128 : S65536x1x128.ShapeCasts S65536x128
  slices_S65536x16x128_S65536x1x128_0_14_0 : S65536x16x128.Slices ![0, 14, 0] S65536x1x128
  shapeCasts_S256_S1x256 : S256.ShapeCasts S1x256
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x1_S256x1_0_0 : ∀ a, (![0, 0] : Fin 2 → Nat) a + S256x1.size a ≤ S256x1.size a
  h_S256x1 : 0 < S256x1.numel
  shapeCasts_S256x1_S256 : S256x1.ShapeCasts S256
  broadcasts_S1x256_S1024x256 : S1x256.Broadcasts S1024x256
  concatenates_S1024x128_S1024x128_S1024x256_d1 : Shape.Concatenates [S1024x128, S1024x128] S1024x256 1
  slices_S1024x256_o0_128_S1024x128 : S1024x256.Slices ![0, 128] S1024x128
  slices_S1024x256_o0_0_S1024x128 : S1024x256.Slices ![0, 0] S1024x128
  inb_S1024x256_S1024x256_0_0 : ∀ a, (![0, 0] : Fin 2 → Nat) a + S1024x256.size a ≤ S1024x256.size a
  h_S1024x256 : 0 < S1024x256.numel
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S65536x128.size a
  hwx0_1 : ∀ i : grid0.Coords, EltTy.bits .f32 = 32 ∨ (Rect.block (s := S65536x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S65536x256.size a
  hwx0_7 : ∀ i : grid0.Coords, EltTy.bits .f32 = 32 ∨ (Rect.block (s := S65536x256) S1024x256.size (cc0_transform_7 i) (hinb0_7 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S65536x16x128 : Shape := ⟨3, ![65536, 16, 128]⟩
abbrev S256x256 : Shape := ⟨2, ![256, 256]⟩
abbrev S256 : Shape := ⟨1, ![256]⟩
abbrev S256x1 : Shape := ⟨2, ![256, 1]⟩
abbrev S65536x1x128 : Shape := ⟨3, ![65536, 1, 128]⟩
abbrev S65536x128 : Shape := ⟨2, ![65536, 128]⟩
abbrev S65536x256 : Shape := ⟨2, ![65536, 256]⟩
abbrev S1x256 : Shape := ⟨2, ![1, 256]⟩
abbrev S_ : Shape := ⟨0, ![]⟩
abbrev S65536x1 : Shape := ⟨2, ![65536, 1]⟩

abbrev nBuf : Space → Nat
  | .hbm => 251
  | .vmem => 0
  | .smem => 0
  | _ => 0

abbrev hbmTy0_0 (i : Nat) : BufTy := match i % 128 with
  | 0 => ⟨S65536x16x128, .f32⟩
  | 1 => ⟨S256x256, .f32⟩
  | 2 => ⟨S256, .f32⟩
  | 3 => ⟨S256x256, .f32⟩
  | 4 => ⟨S256, .f32⟩
  | 5 => ⟨S256x1, .f32⟩
  | 6 => ⟨S65536x1x128, .f32⟩
  | 7 => ⟨S65536x128, .f32⟩
  | 8 => ⟨S65536x1x128, .f32⟩
  | 9 => ⟨S65536x128, .f32⟩
  | 10 => ⟨S65536x1x128, .f32⟩
  | 11 => ⟨S65536x128, .f32⟩
  | 12 => ⟨S65536x128, .f32⟩
  | 13 => ⟨S65536x256, .f32⟩
  | 14 => ⟨S65536x256, .f32⟩
  | 15 => ⟨S1x256, .f32⟩
  | 16 => ⟨S65536x256, .f32⟩
  | 17 => ⟨S65536x256, .f32⟩
  | 18 => ⟨S65536x256, .f32⟩
  | 19 => ⟨S_, .f32⟩
  | 20 => ⟨S65536x256, .f32⟩
  | 21 => ⟨S65536x256, .f32⟩
  | 22 => ⟨S65536x256, .f32⟩
  | 23 => ⟨S1x256, .f32⟩
  | 24 => ⟨S65536x256, .f32⟩
  | 25 => ⟨S65536x256, .f32⟩
  | 26 => ⟨S65536x256, .f32⟩
  | 27 => ⟨S_, .f32⟩
  | 28 => ⟨S65536x256, .f32⟩
  | 29 => ⟨S65536x256, .f32⟩
  | 30 => ⟨S65536x1, .f32⟩
  | 31 => ⟨S_, .f32⟩
  | 32 => ⟨S_, .f32⟩
  | 33 => ⟨S_, .f32⟩
  | 34 => ⟨S65536x1, .f32⟩
  | 35 => ⟨S65536x256, .f32⟩
  | 36 => ⟨S65536x256, .f32⟩
  | 37 => ⟨S65536x256, .f32⟩
  | 38 => ⟨S65536x256, .f32⟩
  | 39 => ⟨S65536x256, .f32⟩
  | 40 => ⟨S65536x256, .f32⟩
  | 41 => ⟨S65536x256, .f32⟩
  | 42 => ⟨S65536x256, .f32⟩
  | 43 => ⟨S65536x256, .f32⟩
  | 44 => ⟨S65536x128, .f32⟩
  | 45 => ⟨S65536x128, .f32⟩
  | 46 => ⟨S65536x128, .f32⟩
  | 47 => ⟨S_, .f32⟩
  | 48 => ⟨S65536x128, .f32⟩
  | 49 => ⟨S65536x128, .f32⟩
  | 50 => ⟨S65536x128, .f32⟩
  | 51 => ⟨S_, .f32⟩
  | 52 => ⟨S65536x128, .f32⟩
  | 53 => ⟨S65536x128, .f32⟩
  | 54 => ⟨S65536x128, .f32⟩
  | 55 => ⟨S65536x256, .f32⟩
  | 56 => ⟨S65536x256, .f32⟩
  | 57 => ⟨S1x256, .f32⟩
  | 58 => ⟨S65536x256, .f32⟩
  | 59 => ⟨S65536x256, .f32⟩
  | 60 => ⟨S65536x256, .f32⟩
  | 61 => ⟨S_, .f32⟩
  | 62 => ⟨S65536x256, .f32⟩
  | 63 => ⟨S65536x256, .f32⟩
  | 64 => ⟨S65536x256, .f32⟩
  | 65 => ⟨S1x256, .f32⟩
  | 66 => ⟨S65536x256, .f32⟩
  | 67 => ⟨S65536x256, .f32⟩
  | 68 => ⟨S65536x256, .f32⟩
  | 69 => ⟨S_, .f32⟩
  | 70 => ⟨S65536x256, .f32⟩
  | 71 => ⟨S65536x256, .f32⟩
  | 72 => ⟨S65536x1, .f32⟩
  | 73 => ⟨S_, .f32⟩
  | 74 => ⟨S_, .f32⟩
  | 75 => ⟨S_, .f32⟩
  | 76 => ⟨S65536x1, .f32⟩
  | 77 => ⟨S65536x256, .f32⟩
  | 78 => ⟨S65536x256, .f32⟩
  | 79 => ⟨S65536x256, .f32⟩
  | 80 => ⟨S65536x256, .f32⟩
  | 81 => ⟨S65536x256, .f32⟩
  | 82 => ⟨S65536x256, .f32⟩
  | 83 => ⟨S65536x256, .f32⟩
  | 84 => ⟨S65536x256, .f32⟩
  | 85 => ⟨S65536x256, .f32⟩
  | 86 => ⟨S65536x128, .f32⟩
  | 87 => ⟨S65536x128, .f32⟩
  | 88 => ⟨S_, .f32⟩
  | 89 => ⟨S65536x128, .f32⟩
  | 90 => ⟨S65536x128, .f32⟩
  | 91 => ⟨S65536x128, .f32⟩
  | 92 => ⟨S65536x256, .f32⟩
  | 93 => ⟨S65536x256, .f32⟩
  | 94 => ⟨S1x256, .f32⟩
  | 95 => ⟨S65536x256, .f32⟩
  | 96 => ⟨S65536x256, .f32⟩
  | 97 => ⟨S65536x256, .f32⟩
  | 98 => ⟨S_, .f32⟩
  | 99 => ⟨S65536x256, .f32⟩
  | 100 => ⟨S65536x256, .f32⟩
  | 101 => ⟨S65536x256, .f32⟩
  | 102 => ⟨S1x256, .f32⟩
  | 103 => ⟨S65536x256, .f32⟩
  | 104 => ⟨S65536x256, .f32⟩
  | 105 => ⟨S65536x256, .f32⟩
  | 106 => ⟨S_, .f32⟩
  | 107 => ⟨S65536x256, .f32⟩
  | 108 => ⟨S65536x256, .f32⟩
  | 109 => ⟨S65536x1, .f32⟩
  | 110 => ⟨S_, .f32⟩
  | 111 => ⟨S_, .f32⟩
  | 112 => ⟨S_, .f32⟩
  | 113 => ⟨S65536x1, .f32⟩
  | 114 => ⟨S65536x256, .f32⟩
  | 115 => ⟨S65536x256, .f32⟩
  | 116 => ⟨S65536x256, .f32⟩
  | 117 => ⟨S65536x256, .f32⟩
  | 118 => ⟨S65536x256, .f32⟩
  | 119 => ⟨S65536x256, .f32⟩
  | 120 => ⟨S65536x256, .f32⟩
  | 121 => ⟨S65536x256, .f32⟩
  | 122 => ⟨S65536x256, .f32⟩
  | 123 => ⟨S65536x128, .f32⟩
  | 124 => ⟨S65536x128, .f32⟩
  | 125 => ⟨S65536x128, .f32⟩
  | 126 => ⟨S_, .f32⟩
  | 127 => ⟨S65536x128, .f32⟩
  | _ => ⟨S65536x16x128, .f32⟩

abbrev hbmTy0_1 (i : Nat) : BufTy := match i % 128 with
  | 0 => ⟨S65536x128, .f32⟩
  | 1 => ⟨S65536x128, .f32⟩
  | 2 => ⟨S_, .f32⟩
  | 3 => ⟨S65536x128, .f32⟩
  | 4 => ⟨S65536x128, .f32⟩
  | 5 => ⟨S65536x128, .f32⟩
  | 6 => ⟨S65536x256, .f32⟩
  | 7 => ⟨S65536x256, .f32⟩
  | 8 => ⟨S1x256, .f32⟩
  | 9 => ⟨S65536x256, .f32⟩
  | 10 => ⟨S65536x256, .f32⟩
  | 11 => ⟨S65536x256, .f32⟩
  | 12 => ⟨S_, .f32⟩
  | 13 => ⟨S65536x256, .f32⟩
  | 14 => ⟨S65536x256, .f32⟩
  | 15 => ⟨S65536x256, .f32⟩
  | 16 => ⟨S1x256, .f32⟩
  | 17 => ⟨S65536x256, .f32⟩
  | 18 => ⟨S65536x256, .f32⟩
  | 19 => ⟨S65536x256, .f32⟩
  | 20 => ⟨S_, .f32⟩
  | 21 => ⟨S65536x256, .f32⟩
  | 22 => ⟨S65536x256, .f32⟩
  | 23 => ⟨S65536x1, .f32⟩
  | 24 => ⟨S_, .f32⟩
  | 25 => ⟨S_, .f32⟩
  | 26 => ⟨S_, .f32⟩
  | 27 => ⟨S65536x1, .f32⟩
  | 28 => ⟨S65536x256, .f32⟩
  | 29 => ⟨S65536x256, .f32⟩
  | 30 => ⟨S65536x256, .f32⟩
  | 31 => ⟨S65536x256, .f32⟩
  | 32 => ⟨S65536x256, .f32⟩
  | 33 => ⟨S65536x256, .f32⟩
  | 34 => ⟨S65536x256, .f32⟩
  | 35 => ⟨S65536x256, .f32⟩
  | 36 => ⟨S65536x256, .f32⟩
  | 37 => ⟨S65536x128, .f32⟩
  | 38 => ⟨S65536x128, .f32⟩
  | 39 => ⟨S_, .f32⟩
  | 40 => ⟨S65536x128, .f32⟩
  | 41 => ⟨S65536x128, .f32⟩
  | 42 => ⟨S65536x128, .f32⟩
  | 43 => ⟨S65536x256, .f32⟩
  | 44 => ⟨S65536x256, .f32⟩
  | 45 => ⟨S1x256, .f32⟩
  | 46 => ⟨S65536x256, .f32⟩
  | 47 => ⟨S65536x256, .f32⟩
  | 48 => ⟨S65536x256, .f32⟩
  | 49 => ⟨S_, .f32⟩
  | 50 => ⟨S65536x256, .f32⟩
  | 51 => ⟨S65536x256, .f32⟩
  | 52 => ⟨S65536x256, .f32⟩
  | 53 => ⟨S1x256, .f32⟩
  | 54 => ⟨S65536x256, .f32⟩
  | 55 => ⟨S65536x256, .f32⟩
  | 56 => ⟨S65536x256, .f32⟩
  | 57 => ⟨S_, .f32⟩
  | 58 => ⟨S65536x256, .f32⟩
  | 59 => ⟨S65536x256, .f32⟩
  | 60 => ⟨S65536x1, .f32⟩
  | 61 => ⟨S_, .f32⟩
  | 62 => ⟨S_, .f32⟩
  | 63 => ⟨S_, .f32⟩
  | 64 => ⟨S65536x1, .f32⟩
  | 65 => ⟨S65536x256, .f32⟩
  | 66 => ⟨S65536x256, .f32⟩
  | 67 => ⟨S65536x256, .f32⟩
  | 68 => ⟨S65536x256, .f32⟩
  | 69 => ⟨S65536x256, .f32⟩
  | 70 => ⟨S65536x256, .f32⟩
  | 71 => ⟨S65536x256, .f32⟩
  | 72 => ⟨S65536x256, .f32⟩
  | 73 => ⟨S65536x256, .f32⟩
  | 74 => ⟨S65536x128, .f32⟩
  | 75 => ⟨S65536x128, .f32⟩
  | 76 => ⟨S65536x128, .f32⟩
  | 77 => ⟨S_, .f32⟩
  | 78 => ⟨S65536x128, .f32⟩
  | 79 => ⟨S65536x128, .f32⟩
  | 80 => ⟨S65536x128, .f32⟩
  | 81 => ⟨S_, .f32⟩
  | 82 => ⟨S65536x128, .f32⟩
  | 83 => ⟨S65536x128, .f32⟩
  | 84 => ⟨S65536x128, .f32⟩
  | 85 => ⟨S65536x256, .f32⟩
  | 86 => ⟨S65536x256, .f32⟩
  | 87 => ⟨S1x256, .f32⟩
  | 88 => ⟨S65536x256, .f32⟩
  | 89 => ⟨S65536x256, .f32⟩
  | 90 => ⟨S65536x256, .f32⟩
  | 91 => ⟨S_, .f32⟩
  | 92 => ⟨S65536x256, .f32⟩
  | 93 => ⟨S65536x256, .f32⟩
  | 94 => ⟨S65536x256, .f32⟩
  | 95 => ⟨S1x256, .f32⟩
  | 96 => ⟨S65536x256, .f32⟩
  | 97 => ⟨S65536x256, .f32⟩
  | 98 => ⟨S65536x256, .f32⟩
  | 99 => ⟨S_, .f32⟩
  | 100 => ⟨S65536x256, .f32⟩
  | 101 => ⟨S65536x256, .f32⟩
  | 102 => ⟨S65536x1, .f32⟩
  | 103 => ⟨S_, .f32⟩
  | 104 => ⟨S_, .f32⟩
  | 105 => ⟨S_, .f32⟩
  | 106 => ⟨S65536x1, .f32⟩
  | 107 => ⟨S65536x256, .f32⟩
  | 108 => ⟨S65536x256, .f32⟩
  | 109 => ⟨S65536x256, .f32⟩
  | 110 => ⟨S65536x256, .f32⟩
  | 111 => ⟨S65536x256, .f32⟩
  | 112 => ⟨S65536x256, .f32⟩
  | 113 => ⟨S65536x256, .f32⟩
  | 114 => ⟨S65536x256, .f32⟩
  | 115 => ⟨S65536x256, .f32⟩
  | 116 => ⟨S65536x128, .f32⟩
  | 117 => ⟨S65536x128, .f32⟩
  | 118 => ⟨S_, .f32⟩
  | 119 => ⟨S65536x128, .f32⟩
  | 120 => ⟨S65536x128, .f32⟩
  | 121 => ⟨S65536x128, .f32⟩
  | 122 => ⟨S65536x256, .f32⟩
  | _ => ⟨S65536x16x128, .f32⟩

abbrev hbmTy (i : Nat) : BufTy := match i / 128 with
  | 0 => hbmTy0_0 i
  | 1 => hbmTy0_1 i
  | _ => ⟨S65536x16x128, .f32⟩

abbrev bufTy : (tb : Table) → Fin (tcTables nBuf tb) → BufTy
  | .hbm, ⟨i, _⟩ => hbmTy i
  | _, _ => ⟨S65536x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_7 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_9 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_10 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_11 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_12 : Ref sig .tc := ⟨.hbm, 110, rfl⟩
abbrev main_v91 : Ref sig .tc := ⟨.hbm, 111, rfl⟩
abbrev main_cst_13 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_14 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_15 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_cst_16 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_cst_17 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_cst_18 : Ref sig .tc := ⟨.hbm, 152, rfl⟩
abbrev main_v127 : Ref sig .tc := ⟨.hbm, 153, rfl⟩
abbrev main_cst_19 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_cst_20 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_cst_21 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_cst_22 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_cst_23 : Ref sig .tc := ⟨.hbm, 189, rfl⟩
abbrev main_v159 : Ref sig .tc := ⟨.hbm, 190, rfl⟩
abbrev main_cst_24 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_cst_25 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_cst_26 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_cst_27 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_cst_28 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_cst_29 : Ref sig .tc := ⟨.hbm, 231, rfl⟩
abbrev main_v195 : Ref sig .tc := ⟨.hbm, 232, rfl⟩
abbrev main_cst_30 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_cst_31 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩

abbrev nD : Nat := 1
abbrev τ : Topo := Topo.v7x

variable {F : FTy → Type} [FloatOps F]

class Facts₀ : Prop where
  slices_S65536x16x128_S65536x1x128_0_15_0 : S65536x16x128.Slices ![0, 15, 0] S65536x1x128
  shapeCasts_S65536x1x128_S65536x128 : S65536x1x128.ShapeCasts S65536x128
  slices_S65536x16x128_S65536x1x128_0_14_0 : S65536x16x128.Slices ![0, 14, 0] S65536x1x128
  concatenates_S65536x128_S65536x128_S65536x256_d1 : Shape.Concatenates [S65536x128, S65536x128] S65536x256 1
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  reducesTo_S65536x1_S_d0_1 : S65536x1.ReducesTo [0, 1] S_
  h_S_ : 0 < S_.numel
  bcast_S_S65536x1 : S_.BroadcastsInDim S65536x1 (![] : Fin 0 → Fin S65536x1.rank)
  slices_S65536x256_S65536x128_0_128 : S65536x256.Slices ![0, 128] S65536x128
  slices_S65536x256_S65536x128_0_0 : S65536x256.Slices ![0, 0] S65536x128
  bcast_S_S65536x128 : S_.BroadcastsInDim S65536x128 (![] : Fin 0 → Fin S65536x128.rank)
  dot_S65536x256_S256x256_S65536x256_1_0_0_1_n_n_wf : DotDims.WF S65536x256 S256x256 S65536x256 [1] [0] [0] [1] [] []
  dot_S65536x256_S256x1_S65536x1_1_0_0_1_n_n_wf : DotDims.WF S65536x256 S256x1 S65536x1 [1] [0] [0] [1] [] []
  dot_S65536x1_S256x1_S65536x256_1_1_0_0_n_n_wf : DotDims.WF S65536x1 S256x1 S65536x256 [1] [1] [0] [0] [] []
  dot_S65536x256_S256x256_S65536x256_1_1_0_0_n_n_wf : DotDims.WF S65536x256 S256x256 S65536x256 [1] [1] [0] [0] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf
def dot_S65536x1_S256x1_S65536x256_1_1_0_0_n_n : DotDims S65536x1 S256x1 S65536x256 where
  lhsContracting := [1]
  rhsContracting := [1]
  lhsNonContracting := [0]
  rhsNonContracting := [0]
  lhsBatch := []
  rhsBatch := []
  wf := dot_S65536x1_S256x1_S65536x256_1_1_0_0_n_n_wf
def dot_S65536x256_S256x256_S65536x256_1_1_0_0_n_n : DotDims S65536x256 S256x256 S65536x256 where
  lhsContracting := [1]
  rhsContracting := [1]
  lhsNonContracting := [0]
  rhsNonContracting := [0]
  lhsBatch := []
  rhsBatch := []
  wf := dot_S65536x256_S256x256_S65536x256_1_1_0_0_n_n_wf

class Facts : Prop extends Facts₀ where

variable [Facts]
-- ==== Proof.Leapfrog.lean ====
/-
  The mathematics of one row. Each batch row carries a state (q, p) of two halves of 128 entries. The Hamiltonian is
  the two-layer tanh network H(s) = tanh(tanh(s·W1 + b1)·W2 + b2)·wo, and one leapfrog step is
    p ← p − (dt/2)·∂H/∂q,  q ← q + dt·∂H/∂p,  p ← p − (dt/2)·∂H/∂q   (the last at the new q and p),
  three steps in all from q₀ = x[·,15,·], p₀ = x[·,15,·] − x[·,14,·]. The gradient of H along a row is written twice:
  `gradK`, the hand back-propagation  g·(1 − h²), and `gradR`, the form automatic differentiation gives,
  g·(1 − h) + g·(1 − h)·h. On the reals the two agree; on the extended reals they agree wherever every entry is finite.
-/
import Idealize.ShloMosaic.PureOps.Ideal
import Idealize.ShloMosaic.Lib.ValueIdx

noncomputable section

namespace Cert.Leapfrog

open Idealize.ShloMosaic Idealize.ShloMosaic.ValueIdx

/-- A row of 256 entries: a state (q in the first 128 columns, p in the last 128) or a hidden layer. -/
abbrev Row := Fin 256 → EReal
/-- Half a state row: q or p. -/
abbrev Half := Fin 128 → EReal

/-- The literals, as the binary words both programs print. -/
abbrev one : EReal := Ideal.ofBits .f32 0x3F800000#32
abbrev zero : EReal := Ideal.ofBits .f32 0x00000000#32
abbrev halfDt : EReal := Ideal.ofBits .f32 0x3D4CCCCD#32
abbrev dt : EReal := Ideal.ofBits .f32 0x3DCCCCCD#32

/-- An extended real that is a real number. -/
def IsFin (x : EReal) : Prop := ∃ r : ℝ, x = (r : EReal)

/-- q and p side by side. -/
def cat (q p : Half) : Row := fun j => if h : j.val < 128 then q ⟨j.val, h⟩ else p ⟨j.val - 128, by omega⟩
/-- The first 128 columns. -/
def lo (d : Row) : Half := fun k => d ⟨k.val, by omega⟩
/-- The last 128 columns. -/
def hi (d : Row) : Half := fun k => d ⟨k.val + 128, by omega⟩

/-- One layer: tanh of the row times the weight matrix plus the bias. -/
def hidden (W : Fin 256 → Fin 256 → EReal) (b : Row) (s : Row) : Row :=
  fun j => Ideal.tanh ((∑ k, s k * W k j) + b j)

/-- ∂H/∂s along one row by hand back-propagation: the tanh derivative written 1 − h². -/
def gradK (W1 : Fin 256 → Fin 256 → EReal) (b1 : Row) (W2 : Fin 256 → Fin 256 → EReal) (b2 : Row) (wo : Row) (s : Row) : Row :=
  let h1 := hidden W1 b1 s
  let h2 := hidden W2 b2 h1
  let dz2 : Row := fun j => wo j * (one - h2 j * h2 j)
  let dh1 : Row := fun j => ∑ k, dz2 k * W2 j k
  let dz1 : Row := fun j => dh1 j * (one - h1 j * h1 j)
  fun j => ∑ k, dz1 k * W1 j k

/-- ∂H/∂s along one row as automatic differentiation writes it: the cotangent 1·wo, and the tanh derivative as
    a·(1 − h) + a·(1 − h)·h. -/
def gradR (W1 : Fin 256 → Fin 256 → EReal) (b1 : Row) (W2 : Fin 256 → Fin 256 → EReal) (b2 : Row) (wo : Row) (s : Row) : Row :=
  let h1 := hidden W1 b1 s
  let h2 := hidden W2 b2 h1
  let a2 : Row := fun j => (one * wo j) * (one - h2 j)
  let dh1 : Row := fun j => ∑ k, (a2 k + a2 k * h2 k) * W2 j k
  let a1 : Row := fun j => dh1 j * (one - h1 j)
  fun j => ∑ k, (a1 k + a1 k * h1 k) * W1 j k

/-- One leapfrog step of (q, p) under a gradient `grad` and a negation `neg` (one program writes 0 − x, the other −x). -/
def step (grad : Row → Row) (neg : EReal → EReal) (qp : Half × Half) : Half × Half :=
  let d := grad (cat qp.1 qp.2)
  let p1 : Half := fun k => qp.2 k + halfDt * neg (lo d k)
  let q1 : Half := fun k => qp.1 k + dt * hi d k
  let d2 := grad (cat q1 p1)
  (q1, fun k => p1 k + halfDt * neg (lo d2 k))

/-- Three steps, the result laid out as a row. -/
def leap (grad : Row → Row) (neg : EReal → EReal) (q p : Half) : Row :=
  let r := step grad neg (step grad neg (step grad neg (q, p)))
  cat r.1 r.2

/-- The kernel's row: from the last time step `xl` and the one before `xp`. -/
def outK (W1 : Fin 256 → Fin 256 → EReal) (b1 : Row) (W2 : Fin 256 → Fin 256 → EReal) (b2 : Row) (wo : Row) (xl xp : Half) : Row :=
  leap (gradK W1 b1 W2 b2 wo) (fun x => zero - x) xl (fun k => xl k - xp k)

/-- The reference's row. -/
def outR (W1 : Fin 256 → Fin 256 → EReal) (b1 : Row) (W2 : Fin 256 → Fin 256 → EReal) (b2 : Row) (wo : Row) (xl xp : Half) : Row :=
  leap (gradR W1 b1 W2 b2 wo) (fun x => -x) xl (fun k => xl k - xp k)

/-- The whole result array as one function of the argument arrays: row R, column j. -/
def G (x : (⟨3, ![65536, 16, 128]⟩ : Shape).Idx → EReal) (W1 : (⟨2, ![256, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (Wo : (⟨2, ![256, 1]⟩ : Shape).Idx → EReal) (R : Fin 65536) : Row :=
  outK (fun a b => W1 (ix2 a b)) (fun a => b1 (ix1 a)) (fun a b => W2 (ix2 a b)) (fun a => b2 (ix1 a))
    (fun a => Wo (ix2 a (0 : Fin 1))) (fun k => x (ix3 R (15 : Fin 16) k)) (fun k => x (ix3 R (14 : Fin 16) k))

end Cert.Leapfrog

end
-- ==== Proof.FiniteInputs.lean ====
/-
  What the precondition says. It is the conjunction, over the six argument arrays, of "every entry x has |x| below the
  word 0x7F800000", which at the extended reals is |x| < +∞, that is: x is a real number.
-/
import proofs.«151128_j2671469658242_1_alg».proof.Proof.Leapfrog
import proofs.«151128_j2671469658242_1_alg».proof.Pre_finite_inputs
import Idealize.ShloMosaic.Lib.ReduceAll
import Idealize.ShloMosaic.Lib.Pipeline.Value
import Idealize.ShloMosaic.PureOps.Ideal.Laws

noncomputable section

namespace Cert.FiniteInputs

open Idealize.ShloMosaic Cert.Pre_finite_inputs Cert.Leapfrog

instance : Subsingleton S_.Idx := ⟨fun a b => funext fun d => d.elim0⟩

/-- The word 0x7F800000 is +∞. -/
theorem inf_word : Ideal.ofBits .f32 0x7F800000#32 = (⊤ : EReal) := by
  simp [Ideal.ofBits, Ideal.ieee]

/-- An extended real whose absolute value max x (−x) is below +∞ is a real number. -/
theorem isFin_of_abs_lt (x : EReal)
    (h : FloatOps.cmpf (F := Ideal) (φ := .f32) .olt (FloatOps.hostAbsf (F := Ideal) (φ := .f32) x) (Ideal.ofBits .f32 0x7F800000#32) = 1#1) :
    IsFin x := by
  rw [Ideal.cmpf_def, Ideal.hostAbsf_def, Ideal.absf_def, inf_word] at h
  have hlt : max x (-x) < ⊤ := by
    by_contra hn
    simp [Ideal.cmp, hn] at h
  have h1 : x ≠ ⊤ := fun e => by rw [e] at hlt; simp at hlt
  have h2 : x ≠ ⊥ := fun e => by rw [e] at hlt; simp at hlt
  exact ⟨x.toReal, (EReal.coe_toReal h1 h2).symm⟩

variable [Facts]

/-- One `all (|a| < +∞)` over an array: every entry is a real number. -/
theorem all_isFin {s : Shape} (a : FVec Ideal s .f32) (hb : S_.BroadcastsInDim s (![] : Fin 0 → Fin s.rank))
    (axes : List (Fin s.rank)) (h : s.ReducesTo axes S_) (hu : 0 < S_.numel)
    (e : Host.reduce IntOp.andi (cmpf .olt (Host.absf a) (broadcastInDim s ![] hb (constant (F := Ideal) S_ .f32 0x7F800000#32)))
        (constantI S_ 1 1#1) h hu ValueIdx.ix0 = 1#1) (i : s.Idx) : IsFin (a i) := by
  have hi := Host.reduce_andi_all _ _ h hu ValueIdx.ix0 e i
  refine isFin_of_abs_lt (a i) ?_
  have hbc : broadcastInDim s ![] hb (constant (F := Ideal) S_ .f32 0x7F800000#32) i = Ideal.ofBits .f32 0x7F800000#32 :=
    broadcastInDim_apply _ hb _ i ValueIdx.ix0 (fun a => a.elim0)
  rw [← hbc]
  exact hi

/-- The precondition at the extended reals: every entry of every argument array is a real number. -/
theorem isFin_of_pre (a0 : FVec Ideal S65536x16x128 .f32) (a1 : FVec Ideal S256x256 .f32) (a2 : FVec Ideal S256 .f32)
    (a3 : FVec Ideal S256x256 .f32) (a4 : FVec Ideal S256 .f32) (a5 : FVec Ideal S256x1 .f32)
    (h : fn (F := Ideal) a0 a1 a2 a3 a4 a5 = fun _ => 1#1) :
    (∀ i, IsFin (a0 i)) ∧ (∀ i, IsFin (a1 i)) ∧ (∀ i, IsFin (a2 i)) ∧ (∀ i, IsFin (a3 i)) ∧ (∀ i, IsFin (a4 i)) ∧ (∀ i, IsFin (a5 i)) := by
  have h0 := congrFun h ValueIdx.ix0
  dsimp only [fn, fn_part1, andi] at h0
  obtain ⟨h01234, e5⟩ := IntOp.andi_eq_one.1 h0
  obtain ⟨h0123, e4⟩ := IntOp.andi_eq_one.1 h01234
  obtain ⟨h012, e3⟩ := IntOp.andi_eq_one.1 h0123
  obtain ⟨h01, e2⟩ := IntOp.andi_eq_one.1 h012
  obtain ⟨e0, e1⟩ := IntOp.andi_eq_one.1 h01
  exact ⟨all_isFin a0 _ _ _ _ e0, all_isFin a1 _ _ _ _ e1,
    all_isFin a2 _ _ _ _ e2, all_isFin a3 _ _ _ _ e3,
    all_isFin a4 _ _ _ _ e4, all_isFin a5 _ _ _ _ e5⟩

end Cert.FiniteInputs

end
-- ==== Proof.KernelRows.lean ====
/-
  The kernel body, row by row. Every operation of the body acts on each of the block's 1024 rows by itself: a product
  with a 256 × 256 weight matrix (or its transpose) is a sum over the row's 256 entries, tanh and the arithmetic are
  entrywise, a concatenation or a slice along the columns re-lays one row. So the block the body stores, at row r and
  column j, is the leapfrog row `Leapfrog.outK` of row r of the two loaded time steps.
-/
import proofs.«151128_j2671469658242_1_alg».proof.Proof.Leapfrog
import proofs.«151128_j2671469658242_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.KernelRows

open Idealize.ShloMosaic Idealize.ShloMosaic.ValueIdx Cert.KernelIdeal Cert.KernelIdeal.Gen
open scoped BigOperators

/-! ## One product with a 256 × 256 matrix, read along a row -/

/-- The body's one contraction: rows of a 1024 × 256 block against the rows of a 256 × 256 matrix. -/
abbrev D := dot_S1024x256_S256x256_S1024x256_1_0_0_1_n_n

/-- The operand indices of that contraction, coordinate by coordinate: the block is read at (row of the result, k), the
    matrix at (k, column of the result). -/
theorem lhs_0 (j : S1024x256.Idx) (k : D.contr.Idx) : (D.lhsIdx j k 0 : ℕ) = j 0 := by
  simp [DotDims.lhsIdx, D, dot_S1024x256_S256x256_S1024x256_1_0_0_1_n_n]; rfl
theorem lhs_1 (j : S1024x256.Idx) (k : D.contr.Idx) : (D.lhsIdx j k 1 : ℕ) = k ⟨0, by decide⟩ := by
  simp [DotDims.lhsIdx, D, dot_S1024x256_S256x256_S1024x256_1_0_0_1_n_n]; rfl
theorem rhs_0 (j : S1024x256.Idx) (k : D.contr.Idx) : (D.rhsIdx j k 0 : ℕ) = k ⟨0, by decide⟩ := by
  simp [DotDims.rhsIdx, D, dot_S1024x256_S256x256_S1024x256_1_0_0_1_n_n]; rfl
theorem rhs_1 (j : S1024x256.Idx) (k : D.contr.Idx) : (D.rhsIdx j k 1 : ℕ) = j 1 := by
  simp [DotDims.rhsIdx, D, dot_S1024x256_S256x256_S1024x256_1_0_0_1_n_n]; rfl

/-- A block times a matrix, into the zero block, at row r and column j: the sum along row r of the block against
    column j of the matrix. -/
theorem matmul_row (s : FVec Ideal S1024x256 .f32) (w : FVec Ideal S256x256 .f32) (r : Fin 1024) (j : Fin 256) :
    matmul D none s w (constant (F := Ideal) S1024x256 .f32 0x00000000#32) (ix2 r j) = ∑ k : Fin 256, s (ix2 r k) * w (ix2 k j) := by
  refine (Ideal.matmul_constant_zero_apply D none s w (ix2 r j)).trans ?_
  rw [← Equiv.sum_comp (contrEquiv1 D 256 rfl rfl).symm]
  refine Finset.sum_congr rfl fun k _ => ?_
  have el : D.lhsIdx (ix2 r j) ((contrEquiv1 D 256 rfl rfl).symm k) = ix2 r k :=
    Shape.idx_ext₂ (lhs_0 _ _) ((lhs_1 _ _).trans (contrEquiv1_symm_val D 256 rfl rfl k))
  have er : D.rhsIdx (ix2 r j) ((contrEquiv1 D 256 rfl rfl).symm k) = ix2 k j :=
    Shape.idx_ext₂ ((rhs_0 _ _).trans (contrEquiv1_symm_val D 256 rfl rfl k)) (rhs_1 _ _)
  rw [el, er]

/-! ## The loaded operands, re-laid -/

/-- A cast of a block to its own shape changes nothing. -/
theorem pay2_eq (x : Vec Ideal S1024x128 .f32) : k0_pay2 (F := Ideal) x = x :=
  shapeCast_self x shapeCasts_S1024x128_S1024x128

/-- The starting momentum: the last time step less the one before, entry by entry. -/
theorem pay3_apply (a b : Vec Ideal S1024x128 .f32) (i : S1024x128.Idx) : k0_pay3 (F := Ideal) a b i = a i - b i := by
  unfold k0_pay3
  simp only [shapeCast_self]
  rfl

/-- The transposed first weight matrix. -/
theorem pay4_apply (x : Vec Ideal S256x256 .f32) (a b : Fin 256) : k0_pay4 (F := Ideal) x (ix2 a b) = x (ix2 b a) :=
  transpose_ix2_apply x transposes_S256x256_p1_0_S256x256 a b

/-- The transposed second weight matrix. -/
theorem pay6_apply (x : Vec Ideal S256x256 .f32) (a b : Fin 256) : k0_pay6 (F := Ideal) x (ix2 a b) = x (ix2 b a) :=
  transpose_ix2_apply x transposes_S256x256_p1_0_S256x256 a b

/-- A bias row cast to its own shape. -/
theorem pay5_eq (x : Vec Ideal S1x256 .f32) : k0_pay5 (F := Ideal) x = x :=
  shapeCast_self x shapeCasts_S1x256_S1x256

theorem pay7_eq (x : Vec Ideal S1x256 .f32) : k0_pay7 (F := Ideal) x = x :=
  shapeCast_self x shapeCasts_S1x256_S1x256

/-- The output weights, a 256 × 1 column, laid along every row of a 1024 × 256 block. -/
theorem pay8_apply (x : Vec Ideal S256x1 .f32) (r : Fin 1024) (j : Fin 256) :
    k0_pay8 (F := Ideal) x (ix2 r j) = x (ix2 j (0 : Fin 1)) := by
  show broadcastTo S1024x256 (shapeCast S1x256 (shapeCast S256 x shapeCasts_S256x1_S256) shapeCasts_S256_S1x256)
    broadcasts_S1x256_S1024x256 (ix2 r j) = _
  refine (broadcastTo_1b_ab_apply _ broadcasts_S1x256_S1024x256 r j).trans ?_
  refine (shapeCast_a_1a_apply _ shapeCasts_S256_S1x256 (0 : Fin 1) j).trans ?_
  refine shapeCast_apply x shapeCasts_S256x1_S256 (ix1 j) (ix2 j (0 : Fin 1)) ?_
  rw [Shape.rowMajor_val_two, Shape.rowMajor_val_one]
  show j.val * 1 + 0 = j.val
  omega

/-! ## The body's repeating pieces, as functions of whole blocks -/

section Block
variable {F : FTy → Type} [FloatOps F]

/-- One layer on a block: tanh of the block times the weight matrix plus the bias row. -/
def vHid (w : FVec F S256x256 .f32) (b : FVec F S1x256 .f32) (s : FVec F S1024x256 .f32) : FVec F S1024x256 .f32 :=
  tanh (addf (matmul D none s w (constant S1024x256 .f32 0x00000000#32)) (broadcastTo S1024x256 b broadcasts_S1x256_S1024x256))

/-- One less a block, entry by entry. -/
def vOneSub (h : FVec F S1024x256 .f32) : FVec F S1024x256 .f32 :=
  subf (broadcast S1024x256 (Scalar.ofBits .f32 0x3F800000#32)) h

/-- The back-propagated block before its last product, from the first hidden layer h1 and the square of the second:
    ((wo · (1 − h2²)) × W2ᵀ) · (1 − h1²). -/
def vBack (w2t : FVec F S256x256 .f32) (wob h1 h2sq : FVec F S1024x256 .f32) : FVec F S1024x256 .f32 :=
  mulf (matmul D none (mulf wob (vOneSub h2sq)) w2t (constant S1024x256 .f32 0x00000000#32)) (vOneSub (mulf h1 h1))

/-- The same from a state block: both layers run forward, then back. -/
def vPre (x2 : Vec F S256x256 .f32) (x3 : Vec F S1x256 .f32) (x4 : Vec F S256x256 .f32) (x5 : Vec F S1x256 .f32)
    (x6 : Vec F S256x1 .f32) (s : FVec F S1024x256 .f32) : FVec F S1024x256 .f32 :=
  vBack (k0_pay6 x4) (k0_pay8 x6) (vHid x2 (k0_pay5 x3) s)
    (mulf (vHid x4 (k0_pay7 x5) (vHid x2 (k0_pay5 x3) s)) (vHid x4 (k0_pay7 x5) (vHid x2 (k0_pay5 x3) s)))

/-- The gradient of the Hamiltonian along every row of a state block. -/
def vGrad (x2 : Vec F S256x256 .f32) (x3 : Vec F S1x256 .f32) (x4 : Vec F S256x256 .f32) (x5 : Vec F S1x256 .f32)
    (x6 : Vec F S256x1 .f32) (s : FVec F S1024x256 .f32) : FVec F S1024x256 .f32 :=
  matmul D none (vPre x2 x3 x4 x5 x6 s) (k0_pay4 x2) (constant S1024x256 .f32 0x00000000#32)

/-- Positions and momenta side by side. -/
def vCat (q p : FVec F S1024x128 .f32) : FVec F S1024x256 .f32 :=
  concatenate S1024x256 1 [⟨S1024x128, q⟩, ⟨S1024x128, p⟩] concatenates_S1024x128_S1024x128_S1024x256_d1

/-- A half step of the momenta: p + (dt/2) · (0 − ∂H/∂q), the gradient's first 128 columns. -/
def vKick (p : FVec F S1024x128 .f32) (d : FVec F S1024x256 .f32) : FVec F S1024x128 .f32 :=
  addf p (mulf (broadcast S1024x128 (Scalar.ofBits .f32 0x3D4CCCCD#32))
    (subf (broadcast S1024x128 (Scalar.ofBits .f32 0x00000000#32)) (extractStridedSlice S1024x128 ![0, 0] d slices_S1024x256_o0_0_S1024x128)))

/-- A whole step of the positions: q + dt · ∂H/∂p, the gradient's last 128 columns. -/
def vDrift (q : FVec F S1024x128 .f32) (d : FVec F S1024x256 .f32) : FVec F S1024x128 .f32 :=
  addf q (mulf (broadcast S1024x128 (Scalar.ofBits .f32 0x3DCCCCCD#32)) (extractStridedSlice S1024x128 ![0, 128] d slices_S1024x256_o0_128_S1024x128))

/-- One leapfrog step of a block of states. -/
def vStep (x2 : Vec F S256x256 .f32) (x3 : Vec F S1x256 .f32) (x4 : Vec F S256x256 .f32) (x5 : Vec F S1x256 .f32)
    (x6 : Vec F S256x1 .f32) (qp : FVec F S1024x128 .f32 × FVec F S1024x128 .f32) : FVec F S1024x128 .f32 × FVec F S1024x128 .f32 :=
  let d := vGrad x2 x3 x4 x5 x6 (vCat qp.1 qp.2)
  let p1 := vKick qp.2 d
  let q1 := vDrift qp.1 d
  let d2 := vGrad x2 x3 x4 x5 x6 (vCat q1 p1)
  (q1, vKick p1 d2)

/-! ## The body's values are these pieces -/

variable (x2 : Vec F S256x256 .f32) (x3 : Vec F S1x256 .f32) (x4 : Vec F S256x256 .f32) (x5 : Vec F S1x256 .f32) (x6 : Vec F S256x1 .f32)

theorem pay9_eq (v0 v2 v4 : Vec F S1024x128 .f32) :
    k0_pay9 v0 v2 v4 x2 x3 x4 x5 x6 = vPre x2 x3 x4 x5 x6 (vCat (k0_pay2 v0) (k0_pay3 v2 v4)) := rfl

theorem pay11_eq (q p : FVec F S1024x128 .f32) :
    k0_pay11 q (k0_pay4 x2) (vPre x2 x3 x4 x5 x6 (vCat q p)) (constant S1024x256 .f32 0x00000000#32)
      = (vStep x2 x3 x4 x5 x6 (q, p)).1 := rfl

theorem pay12_eq (q p : FVec F S1024x128 .f32) :
    k0_pay12 q p x2 (k0_pay4 x2) (k0_pay5 x3) x4 (k0_pay6 x4) (k0_pay7 x5) (k0_pay8 x6) (vPre x2 x3 x4 x5 x6 (vCat q p))
        (constant S1024x256 .f32 0x00000000#32)
      = (vStep x2 x3 x4 x5 x6 (q, p)).2 := rfl

theorem pay13_eq (q p : FVec F S1024x128 .f32) :
    k0_pay13 q p x2 (k0_pay4 x2) (k0_pay5 x3) x4 (k0_pay6 x4) (k0_pay7 x5) (k0_pay8 x6) (vPre x2 x3 x4 x5 x6 (vCat q p))
        (constant S1024x256 .f32 0x00000000#32)
      = vHid x2 (k0_pay5 x3) (vCat (vStep x2 x3 x4 x5 x6 (q, p)).1 (vStep x2 x3 x4 x5 x6 (q, p)).2) := rfl

theorem pay14_eq (q p : FVec F S1024x128 .f32) :
    k0_pay14 q p x2 (k0_pay4 x2) (k0_pay5 x3) x4 (k0_pay6 x4) (k0_pay7 x5) (k0_pay8 x6) (vPre x2 x3 x4 x5 x6 (vCat q p))
        (constant S1024x256 .f32 0x00000000#32)
      = mulf (vHid x4 (k0_pay7 x5) (vHid x2 (k0_pay5 x3) (vCat (vStep x2 x3 x4 x5 x6 (q, p)).1 (vStep x2 x3 x4 x5 x6 (q, p)).2)))
          (vHid x4 (k0_pay7 x5) (vHid x2 (k0_pay5 x3) (vCat (vStep x2 x3 x4 x5 x6 (q, p)).1 (vStep x2 x3 x4 x5 x6 (q, p)).2))) := rfl

theorem pay16_eq (q p : FVec F S1024x128 .f32) :
    k0_pay16 (k0_pay4 x2) (k0_pay6 x4) (k0_pay8 x6) q (vHid x2 (k0_pay5 x3) (vCat q p))
        (mulf (vHid x4 (k0_pay7 x5) (vHid x2 (k0_pay5 x3) (vCat q p))) (vHid x4 (k0_pay7 x5) (vHid x2 (k0_pay5 x3) (vCat q p))))
        (Scalar.ofBits .f32 0x3F800000#32)
      = (vStep x2 x3 x4 x5 x6 (q, p)).1 := rfl

theorem pay17_eq (q p : FVec F S1024x128 .f32) :
    k0_pay17 x2 (k0_pay4 x2) (k0_pay5 x3) x4 (k0_pay6 x4) (k0_pay7 x5) (k0_pay8 x6) q p (vHid x2 (k0_pay5 x3) (vCat q p))
        (mulf (vHid x4 (k0_pay7 x5) (vHid x2 (k0_pay5 x3) (vCat q p))) (vHid x4 (k0_pay7 x5) (vHid x2 (k0_pay5 x3) (vCat q p))))
        (Scalar.ofBits .f32 0x3F800000#32)
      = (vStep x2 x3 x4 x5 x6 (q, p)).2 := rfl

theorem pay18_eq (q p : FVec F S1024x128 .f32) :
    k0_pay18 x2 (k0_pay4 x2) (k0_pay5 x3) x4 (k0_pay6 x4) (k0_pay7 x5) (k0_pay8 x6) q p (vHid x2 (k0_pay5 x3) (vCat q p))
        (mulf (vHid x4 (k0_pay7 x5) (vHid x2 (k0_pay5 x3) (vCat q p))) (vHid x4 (k0_pay7 x5) (vHid x2 (k0_pay5 x3) (vCat q p))))
        (Scalar.ofBits .f32 0x3F800000#32)
      = vCat (vStep x2 x3 x4 x5 x6 (q, p)).1 (vStep x2 x3 x4 x5 x6 (q, p)).2 := rfl

theorem pay1_eq (q p : FVec F S1024x128 .f32) :
    k0_pay1 (k0_pay4 x2)
        (k0_pay20 x2 (k0_pay4 x2) (k0_pay5 x3) x4 (k0_pay6 x4) (k0_pay7 x5) (k0_pay8 x6) p (vCat q p) (constant S1024x256 .f32 0x00000000#32))
        (k0_pay21 x2 (k0_pay4 x2) (k0_pay5 x3) x4 (k0_pay6 x4) (k0_pay7 x5) (k0_pay8 x6) q (vCat q p) (constant S1024x256 .f32 0x00000000#32))
        (k0_pay22 x2 (k0_pay4 x2) (k0_pay5 x3) x4 (k0_pay6 x4) (k0_pay7 x5) (k0_pay8 x6) q p (vCat q p) (constant S1024x256 .f32 0x00000000#32))
        (constant S1024x256 .f32 0x00000000#32)
      = vCat (vStep x2 x3 x4 x5 x6 (q, p)).1 (vStep x2 x3 x4 x5 x6 (q, p)).2 := rfl
end Block

/-! ## The stored block is three steps -/

section Leap
variable {F : FTy → Type} [FloatOps F]

/-- Three leapfrog steps of a block of states, positions and momenta side by side again. -/
def vLeap (x2 : Vec F S256x256 .f32) (x3 : Vec F S1x256 .f32) (x4 : Vec F S256x256 .f32) (x5 : Vec F S1x256 .f32)
    (x6 : Vec F S256x1 .f32) (q p : FVec F S1024x128 .f32) : FVec F S1024x256 .f32 :=
  let s1 := vStep x2 x3 x4 x5 x6 (q, p)
  let s2 := vStep x2 x3 x4 x5 x6 (s1.1, s1.2)
  let s3 := vStep x2 x3 x4 x5 x6 (s2.1, s2.2)
  vCat s3.1 s3.2

theorem hz : (![0, 0] : Fin 2 → Nat) = fun _ => 0 := funext fun a => by fin_cases a <;> rfl

/-- The block the body stores is three steps from the last time step and its difference with the one before. -/
theorem out_eq_leap (x0 x1 : Vec F S1024x128 .f32) (x2 : Vec F S256x256 .f32) (x3 : Vec F S1x256 .f32)
    (x4 : Vec F S256x256 .f32) (x5 : Vec F S1x256 .f32) (x6 : Vec F S256x1 .f32) :
    out0_7 x0 x1 x2 x3 x4 x5 x6 = vLeap x2 x3 x4 x5 x6 (k0_pay2 x0) (k0_pay3 x0 x1) := by
  unfold out0_7
  rw [View.canon_unit_zero hz]
  simp only [View.ld_unit_zero (S := S1024x128) hz, View.ld_unit_zero (S := S256x256) hz, View.ld_unit_zero (S := S1x256) hz,
    View.ld_unit_zero (S := S256x1) hz]
  simp only [pay9_eq, pay11_eq, pay12_eq, pay13_eq, pay14_eq, pay16_eq, pay17_eq, pay18_eq, pay1_eq]
  rfl

end Leap

/-! ## The pieces, read along a row -/

/-- Row r of a block of states or hidden layers. -/
def rowOf (r : Fin 1024) (v : FVec Ideal S1024x256 .f32) : Leapfrog.Row := fun j => v (ix2 r j)
/-- Row r of a block of positions or momenta. -/
def halfOf (r : Fin 1024) (v : FVec Ideal S1024x128 .f32) : Leapfrog.Half := fun k => v (ix2 r k)
/-- Row r of a pair of blocks. -/
def rowPair (r : Fin 1024) (qp : FVec Ideal S1024x128 .f32 × FVec Ideal S1024x128 .f32) : Leapfrog.Half × Leapfrog.Half :=
  (halfOf r qp.1, halfOf r qp.2)

/-- A layer acts on each row by itself. -/
theorem vHid_row (w : FVec Ideal S256x256 .f32) (b : FVec Ideal S1x256 .f32) (s : FVec Ideal S1024x256 .f32) (r : Fin 1024) :
    rowOf r (vHid w b s) = Leapfrog.hidden (fun a c => w (ix2 a c)) (fun a => b (ix2 (0 : Fin 1) a)) (rowOf r s) := by
  funext j
  show Ideal.tanh (matmul D none s w (constant (F := Ideal) S1024x256 .f32 0x00000000#32) (ix2 r j)
    + broadcastTo S1024x256 b broadcasts_S1x256_S1024x256 (ix2 r j)) = _
  rw [matmul_row, broadcastTo_1b_ab_apply]
  rfl

/-- The back-propagated block at row r, column j. -/
theorem vBack_apply (w2t : FVec Ideal S256x256 .f32) (wob h1 h2sq : FVec Ideal S1024x256 .f32) (r : Fin 1024) (j : Fin 256) :
    vBack w2t wob h1 h2sq (ix2 r j)
      = (∑ k : Fin 256, (wob (ix2 r k) * (Leapfrog.one - h2sq (ix2 r k))) * w2t (ix2 k j))
          * (Leapfrog.one - h1 (ix2 r j) * h1 (ix2 r j)) := by
  show matmul D none (mulf wob (vOneSub h2sq)) w2t (constant (F := Ideal) S1024x256 .f32 0x00000000#32) (ix2 r j)
    * (Leapfrog.one - h1 (ix2 r j) * h1 (ix2 r j)) = _
  rw [matmul_row]
  rfl

section Rows
variable (x2 : Vec Ideal S256x256 .f32) (x3 : Vec Ideal S1x256 .f32) (x4 : Vec Ideal S256x256 .f32) (x5 : Vec Ideal S1x256 .f32)
  (x6 : Vec Ideal S256x1 .f32)

/-- The gradient block's row r is the row gradient of the state block's row r. -/
theorem vGrad_row (s : FVec Ideal S1024x256 .f32) (r : Fin 1024) :
    rowOf r (vGrad x2 x3 x4 x5 x6 s)
      = Leapfrog.gradK (fun a b => x2 (ix2 a b)) (fun a => x3 (ix2 (0 : Fin 1) a)) (fun a b => x4 (ix2 a b))
          (fun a => x5 (ix2 (0 : Fin 1) a)) (fun a => x6 (ix2 a (0 : Fin 1))) (rowOf r s) := by
  have e1 : rowOf r (vHid x2 (k0_pay5 x3) s)
      = Leapfrog.hidden (fun a b => x2 (ix2 a b)) (fun a => x3 (ix2 (0 : Fin 1) a)) (rowOf r s) := by
    rw [vHid_row, pay5_eq]
  have e2 : rowOf r (vHid x4 (k0_pay7 x5) (vHid x2 (k0_pay5 x3) s))
      = Leapfrog.hidden (fun a b => x4 (ix2 a b)) (fun a => x5 (ix2 (0 : Fin 1) a))
          (Leapfrog.hidden (fun a b => x2 (ix2 a b)) (fun a => x3 (ix2 (0 : Fin 1) a)) (rowOf r s)) := by
    rw [vHid_row, pay7_eq, e1]
  have h1e : ∀ k : Fin 256, vHid x2 (k0_pay5 x3) s (ix2 r k)
      = Leapfrog.hidden (fun a b => x2 (ix2 a b)) (fun a => x3 (ix2 (0 : Fin 1) a)) (rowOf r s) k := fun k => congrFun e1 k
  have h2e : ∀ k : Fin 256, vHid x4 (k0_pay7 x5) (vHid x2 (k0_pay5 x3) s) (ix2 r k)
      = Leapfrog.hidden (fun a b => x4 (ix2 a b)) (fun a => x5 (ix2 (0 : Fin 1) a))
          (Leapfrog.hidden (fun a b => x2 (ix2 a b)) (fun a => x3 (ix2 (0 : Fin 1) a)) (rowOf r s)) k := fun k => congrFun e2 k
  funext j
  show matmul D none (vPre x2 x3 x4 x5 x6 s) (k0_pay4 x2) (constant (F := Ideal) S1024x256 .f32 0x00000000#32) (ix2 r j) = _
  rw [matmul_row]
  unfold Leapfrog.gradK
  refine Finset.sum_congr rfl fun k _ => ?_
  rw [pay4_apply]
  refine congrArg (· * x2 (ix2 j k)) ?_
  show vBack (k0_pay6 x4) (k0_pay8 x6) (vHid x2 (k0_pay5 x3) s)
    (mulf (vHid x4 (k0_pay7 x5) (vHid x2 (k0_pay5 x3) s)) (vHid x4 (k0_pay7 x5) (vHid x2 (k0_pay5 x3) s))) (ix2 r k) = _
  rw [vBack_apply, h1e]
  refine congrArg (· * _) ?_
  refine Finset.sum_congr rfl fun k' _ => ?_
  rw [pay8_apply, pay6_apply, mulf_apply, h2e]

/-- Two blocks side by side: each row is the two rows side by side. -/
theorem vCat_row (q p : FVec Ideal S1024x128 .f32) (r : Fin 1024) :
    rowOf r (vCat q p) = Leapfrog.cat (halfOf r q) (halfOf r p) := by
  funext j
  unfold Leapfrog.cat
  by_cases h : j.val < 128
  · rw [dif_pos h]
    exact concatenate_pair_apply_left (1 : Fin 2) q p concatenates_S1024x128_S1024x128_S1024x256_d1 (ix2 r j) rfl
      (ix2 r ⟨j.val, h⟩) (fun b => match b with | ⟨0, _⟩ => rfl | ⟨1, _⟩ => rfl)
  · rw [dif_neg h]
    exact concatenate_pair_apply_right (1 : Fin 2) q p concatenates_S1024x128_S1024x128_S1024x256_d1 (ix2 r j) rfl rfl
      (ix2 r ⟨j.val - 128, by omega⟩)
      (fun b hb => match b, hb with | ⟨0, _⟩, _ => rfl | ⟨1, _⟩, hb => absurd rfl hb)
      (by show j.val - 128 + 128 = j.val; omega)

/-- A half step of the momenta, along a row. -/
theorem vKick_row (p : FVec Ideal S1024x128 .f32) (d : FVec Ideal S1024x256 .f32) (r : Fin 1024) :
    halfOf r (vKick p d)
      = fun k => halfOf r p k + Leapfrog.halfDt * (Leapfrog.zero - Leapfrog.lo (rowOf r d) k) := by
  funext k
  show p (ix2 r k) + Leapfrog.halfDt * (Leapfrog.zero - extractStridedSlice S1024x128 ![0, 0] d slices_S1024x256_o0_0_S1024x128 (ix2 r k)) = _
  rw [slice2_axis1_apply 0 d slices_S1024x256_o0_0_S1024x128 r k ⟨k.val, by omega⟩ (Nat.zero_add _).symm]
  rfl

/-- A whole step of the positions, along a row. -/
theorem vDrift_row (q : FVec Ideal S1024x128 .f32) (d : FVec Ideal S1024x256 .f32) (r : Fin 1024) :
    halfOf r (vDrift q d) = fun k => halfOf r q k + Leapfrog.dt * Leapfrog.hi (rowOf r d) k := by
  funext k
  show q (ix2 r k) + Leapfrog.dt * extractStridedSlice S1024x128 ![0, 128] d slices_S1024x256_o0_128_S1024x128 (ix2 r k) = _
  rw [slice2_axis1_apply 128 d slices_S1024x256_o0_128_S1024x128 r k ⟨k.val + 128, by omega⟩ (Nat.add_comm _ _)]
  rfl

end Rows

section Steps
variable (x2 : Vec Ideal S256x256 .f32) (x3 : Vec Ideal S1x256 .f32) (x4 : Vec Ideal S256x256 .f32) (x5 : Vec Ideal S1x256 .f32)
  (x6 : Vec Ideal S256x1 .f32)

/-- One step of a block of states is, along each row, one step of that row. -/
theorem vStep_row (qp : FVec Ideal S1024x128 .f32 × FVec Ideal S1024x128 .f32) (r : Fin 1024) :
    rowPair r (vStep x2 x3 x4 x5 x6 qp)
      = Leapfrog.step (Leapfrog.gradK (fun a b => x2 (ix2 a b)) (fun a => x3 (ix2 (0 : Fin 1) a)) (fun a b => x4 (ix2 a b))
          (fun a => x5 (ix2 (0 : Fin 1) a)) (fun a => x6 (ix2 a (0 : Fin 1)))) (fun x => Leapfrog.zero - x) (rowPair r qp) := by
  unfold rowPair vStep Leapfrog.step
  simp only [vKick_row, vDrift_row, vGrad_row, vCat_row]

/-- Three steps of a block are, along each row, three steps of that row. -/
theorem vLeap_row (q p : FVec Ideal S1024x128 .f32) (r : Fin 1024) :
    rowOf r (vLeap x2 x3 x4 x5 x6 q p)
      = Leapfrog.leap (Leapfrog.gradK (fun a b => x2 (ix2 a b)) (fun a => x3 (ix2 (0 : Fin 1) a)) (fun a b => x4 (ix2 a b))
          (fun a => x5 (ix2 (0 : Fin 1) a)) (fun a => x6 (ix2 a (0 : Fin 1)))) (fun x => Leapfrog.zero - x) (halfOf r q) (halfOf r p) := by
  have e : rowPair r (vStep x2 x3 x4 x5 x6 (vStep x2 x3 x4 x5 x6 (vStep x2 x3 x4 x5 x6 (q, p))))
      = Leapfrog.step (Leapfrog.gradK (fun a b => x2 (ix2 a b)) (fun a => x3 (ix2 (0 : Fin 1) a)) (fun a b => x4 (ix2 a b))
          (fun a => x5 (ix2 (0 : Fin 1) a)) (fun a => x6 (ix2 a (0 : Fin 1)))) (fun x => Leapfrog.zero - x)
        (Leapfrog.step (Leapfrog.gradK (fun a b => x2 (ix2 a b)) (fun a => x3 (ix2 (0 : Fin 1) a)) (fun a b => x4 (ix2 a b))
          (fun a => x5 (ix2 (0 : Fin 1) a)) (fun a => x6 (ix2 a (0 : Fin 1)))) (fun x => Leapfrog.zero - x)
        (Leapfrog.step (Leapfrog.gradK (fun a b => x2 (ix2 a b)) (fun a => x3 (ix2 (0 : Fin 1) a)) (fun a b => x4 (ix2 a b))
          (fun a => x5 (ix2 (0 : Fin 1) a)) (fun a => x6 (ix2 a (0 : Fin 1)))) (fun x => Leapfrog.zero - x) (halfOf r q, halfOf r p))) := by
    rw [vStep_row, vStep_row, vStep_row]
    rfl
  show rowOf r (vCat (vStep x2 x3 x4 x5 x6 (vStep x2 x3 x4 x5 x6 (vStep x2 x3 x4 x5 x6 (q, p)))).1
    (vStep x2 x3 x4 x5 x6 (vStep x2 x3 x4 x5 x6 (vStep x2 x3 x4 x5 x6 (q, p)))).2) = _
  rw [vCat_row]
  exact congrArg (fun t : Leapfrog.Half × Leapfrog.Half => Leapfrog.cat t.1 t.2) e

end Steps

/-- What the body leaves in the output block, at row r and column j: the leapfrog row of row r of the loaded blocks
    (x0 the last time step, x1 the one before, x2 = W1, x3 = b1 as a 1 × 256 row, x4 = W2, x5 = b2, x6 = wo as a column). -/
theorem out_apply (x0 x1 : Vec Ideal S1024x128 .f32) (x2 : Vec Ideal S256x256 .f32) (x3 : Vec Ideal S1x256 .f32)
    (x4 : Vec Ideal S256x256 .f32) (x5 : Vec Ideal S1x256 .f32) (x6 : Vec Ideal S256x1 .f32) (r : Fin 1024) (j : Fin 256) :
    out0_7 (F := Ideal) x0 x1 x2 x3 x4 x5 x6 (ix2 r j)
      = Cert.Leapfrog.outK (fun a b => x2 (ix2 a b)) (fun a => x3 (ix2 (0 : Fin 1) a)) (fun a b => x4 (ix2 a b))
          (fun a => x5 (ix2 (0 : Fin 1) a)) (fun a => x6 (ix2 a (0 : Fin 1))) (fun k => x0 (ix2 r k)) (fun k => x1 (ix2 r k)) j := by
  rw [out_eq_leap]
  refine (congrFun (vLeap_row x2 x3 x4 x5 x6 (k0_pay2 x0) (k0_pay3 x0 x1) r) j).trans ?_
  have hq : halfOf r (k0_pay2 (F := Ideal) x0) = fun k => x0 (ix2 r k) := by rw [pay2_eq]; rfl
  have hp : halfOf r (k0_pay3 (F := Ideal) x0 x1) = fun k => x0 (ix2 r k) - x1 (ix2 r k) :=
    funext fun k => pay3_apply x0 x1 (ix2 r k)
  rw [hq, hp]
  rfl

end Cert.KernelRows

end
-- ==== Proof.KernelValue.lean ====
/-
  From blocks to the array. Grid point t stages rows 1024·t … 1024·t + 1023 of the two time-step slabs x[·,15,·] and
  x[·,14,·] (which the host slices out of x before the call), and the whole weight and bias arrays; the body turns them,
  row by row, into rows 1024·t … of the result. The 64 blocks tile the 65536 rows, so after the run the result array
  is the leapfrog row of every batch row.
-/
import proofs.«151128_j2671469658242_1_alg».proof.Proof.Leapfrog
import proofs.«151128_j2671469658242_1_alg».proof.Proof.KernelRows
import proofs.«151128_j2671469658242_1_alg».proof.Proof.Gen.KernelIdeal.Value
import Idealize.ShloMosaic.Lib.Pipeline.Value
import Idealize.ShloMosaic.Lib.StableHlo.Run
import Idealize.ShloMosaic.Lib.ValueIdx
import Idealize.ShloMosaic.Lib.ValueLayout

noncomputable section

namespace Cert.KernelValue

open Idealize.ShloMosaic Idealize.ShloMosaic.ValueIdx Idealize.ShloMosaic.TcCoe Idealize.SL.Sem
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

/-- The batch row that row r of block t is. -/
def rowOf (t : Fin cfg0.N) (r : Fin 1024) : Fin 65536 :=
  ⟨t.val * 1024 + r.val, by have := lt_of_lt_of_eq t.isLt N_0; have := r.isLt; omega⟩

/-- The result array as one function of the argument arrays as launched. -/
def result (c : Dev nD) : S65536x256.Idx → EReal := fun i =>
  Cert.Leapfrog.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

theorem result_apply (c : Dev nD) (R : Fin 65536) (j : Fin 256) :
    result m c (ix2 R j) = Cert.Leapfrog.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) R j := rfl

/-! ## What the host wrote before the call -/

/-- The last time step, sliced and reshaped: entry (R, k) is x[R, 15, k]. -/
theorem V_v1_apply (c : Dev nD) (R : Fin 65536) (k : Fin 128) :
    V m c main_v1 (ix2 R k) = m ((c : Thread nD τ).loc main_arg0) (ix3 R (15 : Fin 16) k) := by
  have e : (V m c main_v1 : S65536x128.Idx → EReal)
      = shapeCast S65536x128 (extractStridedSlice S65536x1x128 ![0, 15, 0] (m ((c : Thread nD τ).loc main_arg0)) slices_S65536x16x128_S65536x1x128_0_15_0) shapeCasts_S65536x1x128_S65536x128 := by
    dsimp only [V, hostOps0]; after_results; rfl
  rw [e]
  refine (shapeCast_apply _ _ (ix2 R k) (ix3 R (0 : Fin 1) k) ?_).trans ?_
  · rw [Shape.rowMajor_val_three, Shape.rowMajor_val_two]; show (R.val * 1 + 0) * 128 + k.val = R.val * 128 + k.val; omega
  · refine extractStridedSlice_apply _ _ _ (ix3 R (0 : Fin 1) k) (ix3 R (15 : Fin 16) k) (fun a => ?_)
    match a with
    | ⟨0, _⟩ => show R.val = 0 + R.val; omega
    | ⟨1, _⟩ => show 15 = 15 + 0; rfl
    | ⟨2, _⟩ => show k.val = 0 + k.val; omega

/-- The time step before it: entry (R, k) is x[R, 14, k]. -/
theorem V_v3_apply (c : Dev nD) (R : Fin 65536) (k : Fin 128) :
    V m c main_v3 (ix2 R k) = m ((c : Thread nD τ).loc main_arg0) (ix3 R (14 : Fin 16) k) := by
  have e : (V m c main_v3 : S65536x128.Idx → EReal)
      = shapeCast S65536x128 (extractStridedSlice S65536x1x128 ![0, 14, 0] (m ((c : Thread nD τ).loc main_arg0)) slices_S65536x16x128_S65536x1x128_0_14_0) shapeCasts_S65536x1x128_S65536x128 := by
    dsimp only [V, hostOps0]; after_results; rfl
  rw [e]
  refine (shapeCast_apply _ _ (ix2 R k) (ix3 R (0 : Fin 1) k) ?_).trans ?_
  · rw [Shape.rowMajor_val_three, Shape.rowMajor_val_two]; show (R.val * 1 + 0) * 128 + k.val = R.val * 128 + k.val; omega
  · refine extractStridedSlice_apply _ _ _ (ix3 R (0 : Fin 1) k) (ix3 R (14 : Fin 16) k) (fun a => ?_)
    match a with
    | ⟨0, _⟩ => show R.val = 0 + R.val; omega
    | ⟨1, _⟩ => show 14 = 14 + 0; rfl
    | ⟨2, _⟩ => show k.val = 0 + k.val; omega

/-- The first bias as a 1 × 256 row. -/
theorem V_v4_apply (c : Dev nD) (a : Fin 256) :
    V m c main_v4 (ix2 (0 : Fin 1) a) = m ((c : Thread nD τ).loc main_arg2) (ix1 a) := by
  have e : (V m c main_v4 : S1x256.Idx → EReal) = shapeCast S1x256 (m ((c : Thread nD τ).loc main_arg2)) shapeCasts_S256_S1x256 := by
    dsimp only [V, hostOps0]; after_results; rfl
  rw [e]
  refine shapeCast_apply _ _ (ix2 (0 : Fin 1) a) (ix1 a) ?_
  rw [Shape.rowMajor_val_one, Shape.rowMajor_val_two]; show a.val = 0 * 256 + a.val; omega

/-- The second bias as a 1 × 256 row. -/
theorem V_v5_apply (c : Dev nD) (a : Fin 256) :
    V m c main_v5 (ix2 (0 : Fin 1) a) = m ((c : Thread nD τ).loc main_arg4) (ix1 a) := by
  have e : (V m c main_v5 : S1x256.Idx → EReal) = shapeCast S1x256 (m ((c : Thread nD τ).loc main_arg4)) shapeCasts_S256_S1x256 := by
    dsimp only [V, hostOps0]; after_results; rfl
  rw [e]
  refine shapeCast_apply _ _ (ix2 (0 : Fin 1) a) (ix1 a) ?_
  rw [Shape.rowMajor_val_one, Shape.rowMajor_val_two]; show a.val = 0 * 256 + a.val; omega

/-! ## The windows' blocks -/

/-- The printed index maps over the 64 grid points: the two slabs and the result move one block of rows per point,
    the weights and biases stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem iblk0_apply (c : Dev nD) (t : Fin cfg0.N) (r : Fin 1024) (k : Fin 128) :
    iblk m c 0 t (ix2 r k) = m ((c : Thread nD τ).loc main_arg0) (ix3 (rowOf t r) (15 : Fin 16) k) := by
  show V m c main_v1 (((cfg0.win 0).blk t).view.emb (ix2 r k)) = _
  have he : ((cfg0.win 0).blk t).view.emb (ix2 r k) = ix2 (rowOf t r) k := by
    obtain ⟨e0, e1, -⟩ := idx_facts t
    funext a; apply Fin.ext
    match a with
    | ⟨0, _⟩ => show win0_0.index t (0 : Fin 2) * 1024 + 1 * r.val = t.val * 1024 + r.val; rw [e0]; omega
    | ⟨1, _⟩ => show win0_0.index t (1 : Fin 2) * 128 + 1 * k.val = k.val; rw [e1]; omega
  rw [he]; exact V_v1_apply m c _ k

theorem iblk1_apply (c : Dev nD) (t : Fin cfg0.N) (r : Fin 1024) (k : Fin 128) :
    iblk m c 1 t (ix2 r k) = m ((c : Thread nD τ).loc main_arg0) (ix3 (rowOf t r) (14 : Fin 16) k) := by
  show V m c main_v3 (((cfg0.win 1).blk t).view.emb (ix2 r k)) = _
  have he : ((cfg0.win 1).blk t).view.emb (ix2 r k) = ix2 (rowOf t r) k := by
    obtain ⟨-, -, e0, e1, -⟩ := idx_facts t
    funext a; apply Fin.ext
    match a with
    | ⟨0, _⟩ => show win0_1.index t (0 : Fin 2) * 1024 + 1 * r.val = t.val * 1024 + r.val; rw [e0]; omega
    | ⟨1, _⟩ => show win0_1.index t (1 : Fin 2) * 128 + 1 * k.val = k.val; rw [e1]; omega
  rw [he]; exact V_v3_apply m c _ k

theorem iblk2_apply (c : Dev nD) (t : Fin cfg0.N) (a b : Fin 256) :
    iblk m c 2 t (ix2 a b) = m ((c : Thread nD τ).loc main_arg1) (ix2 a b) := by
  show V m c main_arg1 (((cfg0.win 2).blk t).view.emb (ix2 a b)) = _
  have he : ((cfg0.win 2).blk t).view.emb (ix2 a b) = ix2 a b := by
    obtain ⟨-, -, -, -, e0, e1, -⟩ := idx_facts t
    funext d; apply Fin.ext
    match d with
    | ⟨0, _⟩ => show win0_2.index t (0 : Fin 2) * 256 + 1 * a.val = a.val; rw [e0]; omega
    | ⟨1, _⟩ => show win0_2.index t (1 : Fin 2) * 256 + 1 * b.val = b.val; rw [e1]; omega
  rw [he, V_main_arg1]

theorem iblk3_apply (c : Dev nD) (t : Fin cfg0.N) (a : Fin 256) :
    iblk m c 3 t (ix2 (0 : Fin 1) a) = m ((c : Thread nD τ).loc main_arg2) (ix1 a) := by
  show V m c main_v4 (((cfg0.win 3).blk t).view.emb (ix2 (0 : Fin 1) a)) = _
  have he : ((cfg0.win 3).blk t).view.emb (ix2 (0 : Fin 1) a) = ix2 (0 : Fin 1) a := by
    obtain ⟨-, -, -, -, -, -, e0, e1, -⟩ := idx_facts t
    funext d; apply Fin.ext
    match d with
    | ⟨0, _⟩ => show win0_3.index t (0 : Fin 2) * 1 + 1 * 0 = 0; rw [e0]
    | ⟨1, _⟩ => show win0_3.index t (1 : Fin 2) * 256 + 1 * a.val = a.val; rw [e1]; omega
  rw [he]; exact V_v4_apply m c a

theorem iblk4_apply (c : Dev nD) (t : Fin cfg0.N) (a b : Fin 256) :
    iblk m c 4 t (ix2 a b) = m ((c : Thread nD τ).loc main_arg3) (ix2 a b) := by
  show V m c main_arg3 (((cfg0.win 4).blk t).view.emb (ix2 a b)) = _
  have he : ((cfg0.win 4).blk t).view.emb (ix2 a b) = ix2 a b := by
    obtain ⟨-, -, -, -, -, -, -, -, e0, e1, -⟩ := idx_facts t
    funext d; apply Fin.ext
    match d with
    | ⟨0, _⟩ => show win0_4.index t (0 : Fin 2) * 256 + 1 * a.val = a.val; rw [e0]; omega
    | ⟨1, _⟩ => show win0_4.index t (1 : Fin 2) * 256 + 1 * b.val = b.val; rw [e1]; omega
  rw [he, V_main_arg3]

theorem iblk5_apply (c : Dev nD) (t : Fin cfg0.N) (a : Fin 256) :
    iblk m c 5 t (ix2 (0 : Fin 1) a) = m ((c : Thread nD τ).loc main_arg4) (ix1 a) := by
  show V m c main_v5 (((cfg0.win 5).blk t).view.emb (ix2 (0 : Fin 1) a)) = _
  have he : ((cfg0.win 5).blk t).view.emb (ix2 (0 : Fin 1) a) = ix2 (0 : Fin 1) a := by
    obtain ⟨-, -, -, -, -, -, -, -, -, -, e0, e1, -⟩ := idx_facts t
    funext d; apply Fin.ext
    match d with
    | ⟨0, _⟩ => show win0_5.index t (0 : Fin 2) * 1 + 1 * 0 = 0; rw [e0]
    | ⟨1, _⟩ => show win0_5.index t (1 : Fin 2) * 256 + 1 * a.val = a.val; rw [e1]; omega
  rw [he]; exact V_v5_apply m c a

theorem iblk6_apply (c : Dev nD) (t : Fin cfg0.N) (a : Fin 256) :
    iblk m c 6 t (ix2 a (0 : Fin 1)) = m ((c : Thread nD τ).loc main_arg5) (ix2 a (0 : Fin 1)) := by
  show V m c main_arg5 (((cfg0.win 6).blk t).view.emb (ix2 a (0 : Fin 1))) = _
  have he : ((cfg0.win 6).blk t).view.emb (ix2 a (0 : Fin 1)) = ix2 a (0 : Fin 1) := by
    obtain ⟨-, -, -, -, -, -, -, -, -, -, -, -, e0, e1, -⟩ := idx_facts t
    funext d; apply Fin.ext
    match d with
    | ⟨0, _⟩ => show win0_6.index t (0 : Fin 2) * 256 + 1 * a.val = a.val; rw [e0]; omega
    | ⟨1, _⟩ => show win0_6.index t (1 : Fin 2) * 1 + 1 * 0 = 0; rw [e1]
  rw [he, V_main_arg5]

/-! ## What a point writes back, and the whole array -/

/-- Grid point t writes back rows 1024·t … of `result`. -/
theorem flushed_eq (c : Dev nD) (t : Fin cfg0.N) :
    (dats m 0 c).flushed 7 t = ((cfg0.win 7).blk t).view.read (Elt Ideal) (result m c) := by
  rw [flushed7]
  funext y
  obtain ⟨r, j, rfl⟩ : ∃ (r : Fin 1024) (j : Fin 256), y = ix2 r j := ⟨y 0, y 1, eq_ix2 y⟩
  show out0_7 (F := Ideal) (iblk m c 0 t) (iblk m c 1 t) (iblk m c 2 t) (iblk m c 3 t) (iblk m c 4 t) (iblk m c 5 t) (iblk m c 6 t) (ix2 r j)
    = result m c (((cfg0.win 7).blk t).view.emb (ix2 r j))
  have he : ((cfg0.win 7).blk t).view.emb (ix2 r j) = ix2 (rowOf t r) j := by
    obtain ⟨-, -, -, -, -, -, -, -, -, -, -, -, -, -, e0, e1⟩ := idx_facts t
    funext a; apply Fin.ext
    match a with
    | ⟨0, _⟩ => show win0_7.index t (0 : Fin 2) * 1024 + 1 * r.val = t.val * 1024 + r.val; rw [e0]; omega
    | ⟨1, _⟩ => show win0_7.index t (1 : Fin 2) * 256 + 1 * j.val = j.val; rw [e1]; omega
  rw [he, result_apply]
  refine (Cert.KernelRows.out_apply _ _ _ _ _ _ _ r j).trans ?_
  unfold Cert.Leapfrog.G
  simp only [iblk0_apply, iblk1_apply, iblk2_apply, iblk3_apply, iblk4_apply, iblk5_apply, iblk6_apply]

/-- An index of the array is in point t's block iff each coordinate is in the block's range on its axis. -/
theorem mem_blk (t : Fin cfg0.N) (i : S65536x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v6).slice (win0_7.rect t)).set ↔ _
  rw [View.set_slice_whole, Rect.mem_set_unit]
  exact Iff.rfl

/-- Every block of rows is some point's. -/
theorem idx_onto : ∀ q : Fin 64, ∃ t : Fin cfg0.N, win0_7.index t = ![q.val, 0] :=
  (by decide +kernel : ∀ q : Fin 64, ∃ t : Fin grid0.N, win0_7.index t = ![q.val, 0])

/-- The 64 blocks cover the array: row R is in block R / 1024. -/
theorem cover (i : S65536x256.Idx) : ∃ t : Fin cfg0.N, (cfg0.win 7).flush t = true ∧ i ∈ ((cfg0.win 7).blk t).view.set := by
  have hi0 : (i 0).val < 65536 := (i 0).isLt
  have hi1 : (i 1).val < 256 := (i 1).isLt
  obtain ⟨t, ht⟩ := idx_onto ⟨(i 0).val / 1024, by omega⟩
  have q0 : win0_7.index t (0 : Fin 2) = (i 0).val / 1024 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 256 ≤ (i 1).val ∧ (i 1).val < win0_7.index t (1 : Fin 2) * 256 + 256; omega

/-- The result array after the run. -/
theorem final (c : Dev nD) : (dats m 0 c).arrAt 7 cfg0.N = result m c :=
  (dats m 0 c).arrAt_eq_of_cover 7 (result m c) (fun t _ => flushed_eq m c t) cover

/-- The kernel's run with the result array named. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelValue

end
-- ==== Proof.LeapfrogAlgebra.lean ====
/-
  The two row programs agree on finite data. With every weight, bias and input entry a real number, every intermediate
  value (a finite sum of products of reals, a tanh of a real, a real literal times a real) is a real number, so the
  identity  g·(1 − h) + g·(1 − h)·h = g·(1 − h·h)  of the reals applies at each tanh derivative, 1·w = w at the
  cotangent, and 0 − x = −x at each negation.
-/
import proofs.«151128_j2671469658242_1_alg».proof.Proof.Leapfrog

noncomputable section

namespace Cert.Leapfrog

open Idealize.ShloMosaic

/-! ### Real numbers among the extended reals are closed under the operations used -/

theorem IsFin.add {x y : EReal} (hx : IsFin x) (hy : IsFin y) : IsFin (x + y) := by
  obtain ⟨a, rfl⟩ := hx; obtain ⟨b, rfl⟩ := hy; exact ⟨a + b, (EReal.coe_add a b).symm⟩

theorem IsFin.mul {x y : EReal} (hx : IsFin x) (hy : IsFin y) : IsFin (x * y) := by
  obtain ⟨a, rfl⟩ := hx; obtain ⟨b, rfl⟩ := hy; exact ⟨a * b, (EReal.coe_mul a b).symm⟩

theorem IsFin.sub {x y : EReal} (hx : IsFin x) (hy : IsFin y) : IsFin (x - y) := by
  obtain ⟨a, rfl⟩ := hx; obtain ⟨b, rfl⟩ := hy; exact ⟨a - b, (EReal.coe_sub a b).symm⟩

theorem IsFin.neg {x : EReal} (hx : IsFin x) : IsFin (-x) := by
  obtain ⟨a, rfl⟩ := hx; exact ⟨-a, (EReal.coe_neg a).symm⟩

theorem IsFin.tanh {x : EReal} (hx : IsFin x) : IsFin (Ideal.tanh x) := by
  obtain ⟨a, rfl⟩ := hx; exact ⟨Real.tanh a, rfl⟩

theorem isFin_sum {ι : Type} (s : Finset ι) (f : ι → EReal) (h : ∀ k, IsFin (f k)) : IsFin (∑ k ∈ s, f k) := by
  classical
  induction s using Finset.induction_on with
  | empty => exact ⟨0, by simp⟩
  | insert a s ha ih => rw [Finset.sum_insert ha]; exact (h a).add ih

/-! ### The four literals -/

/-- A 32-bit word whose exponent field is not all ones denotes a real number. -/
theorem ieee_isFin (b : BitVec 32) (h : (b.extractLsb' 23 8).toNat ≠ 2 ^ 8 - 1) : IsFin (Ideal.ieee 8 23 b) := by
  unfold Ideal.ieee
  simp only [if_neg h]
  split_ifs <;> exact ⟨_, rfl⟩

theorem one_eq : one = 1 := by
  show Ideal.ofBits .f32 0x3F800000#32 = 1
  rw [show (1 : EReal) = ((1 : ℝ) : EReal) by norm_cast]
  simp [Ideal.ofBits, Ideal.ieee, -EReal.coe_mul]; norm_num

theorem zero_eq : zero = 0 := by
  show Ideal.ofBits .f32 0x00000000#32 = 0
  simp [Ideal.ofBits, Ideal.ieee]

theorem one_isFin : IsFin one := ⟨1, by rw [one_eq]; norm_cast⟩

theorem halfDt_isFin : IsFin halfDt := by
  show IsFin (Ideal.ieee 8 23 (0x3D4CCCCD#32))
  exact ieee_isFin _ (by decide)

theorem dt_isFin : IsFin dt := by
  show IsFin (Ideal.ieee 8 23 (0x3DCCCCCD#32))
  exact ieee_isFin _ (by decide)

/-! ### Rows of real numbers -/

/-- Zero minus x is minus x. -/
theorem zero_sub_eq (x : EReal) : zero - x = -x := by rw [zero_eq, zero_sub]

/-- The two spellings of the tanh derivative agree on real numbers. -/
theorem deriv_forms {g h : EReal} (hg : IsFin g) (hh : IsFin h) :
    g * (one - h) + g * (one - h) * h = g * (one - h * h) := by
  obtain ⟨a, rfl⟩ := hg; obtain ⟨b, rfl⟩ := hh
  rw [one_eq]
  norm_cast
  ring

theorem cat_isFin {q p : Half} (hq : ∀ k, IsFin (q k)) (hp : ∀ k, IsFin (p k)) : ∀ j, IsFin (cat q p j) := by
  intro j
  unfold cat
  split_ifs
  · exact hq _
  · exact hp _

theorem lo_isFin {d : Row} (hd : ∀ j, IsFin (d j)) : ∀ k, IsFin (lo d k) := fun _ => hd _

theorem hi_isFin {d : Row} (hd : ∀ j, IsFin (d j)) : ∀ k, IsFin (hi d k) := fun _ => hd _

theorem hidden_isFin {W : Fin 256 → Fin 256 → EReal} {b s : Row} (hW : ∀ a b, IsFin (W a b)) (hb : ∀ a, IsFin (b a))
    (hs : ∀ a, IsFin (s a)) : ∀ j, IsFin (hidden W b s j) := fun j =>
  ((isFin_sum _ _ fun k => (hs k).mul (hW k j)).add (hb j)).tanh

section grad

variable {W1 : Fin 256 → Fin 256 → EReal} {b1 : Row} {W2 : Fin 256 → Fin 256 → EReal} {b2 : Row} {wo : Row}
  (hW1 : ∀ a b, IsFin (W1 a b)) (hb1 : ∀ a, IsFin (b1 a)) (hW2 : ∀ a b, IsFin (W2 a b)) (hb2 : ∀ a, IsFin (b2 a))
  (hwo : ∀ a, IsFin (wo a))

include hW1 hb1 hW2 hb2 hwo

/-- The hand back-propagation of a row of reals is a row of reals. -/
theorem gradK_isFin {s : Row} (hs : ∀ a, IsFin (s a)) : ∀ j, IsFin (gradK W1 b1 W2 b2 wo s j) := by
  intro j
  have h1 := hidden_isFin hW1 hb1 hs
  have h2 := hidden_isFin hW2 hb2 h1
  unfold gradK
  exact isFin_sum _ _ fun k =>
    ((isFin_sum _ _ fun l => ((hwo l).mul (one_isFin.sub ((h2 l).mul (h2 l)))).mul (hW2 k l)).mul
      (one_isFin.sub ((h1 k).mul (h1 k)))).mul (hW1 j k)

/-- On a row of reals the two gradients agree. -/
theorem gradR_eq_gradK {s : Row} (hs : ∀ a, IsFin (s a)) : gradR W1 b1 W2 b2 wo s = gradK W1 b1 W2 b2 wo s := by
  have h1 := hidden_isFin hW1 hb1 hs
  have h2 := hidden_isFin hW2 hb2 h1
  have e2 : ∀ k, (one * wo k) * (one - hidden W2 b2 (hidden W1 b1 s) k)
      + (one * wo k) * (one - hidden W2 b2 (hidden W1 b1 s) k) * hidden W2 b2 (hidden W1 b1 s) k
      = wo k * (one - hidden W2 b2 (hidden W1 b1 s) k * hidden W2 b2 (hidden W1 b1 s) k) := by
    intro k
    rw [show one * wo k = wo k by rw [one_eq, one_mul]]
    exact deriv_forms (hwo k) (h2 k)
  have hd : ∀ j, IsFin (∑ k, wo k * (one - hidden W2 b2 (hidden W1 b1 s) k * hidden W2 b2 (hidden W1 b1 s) k) * W2 j k) :=
    fun j => isFin_sum _ _ fun l => ((hwo l).mul (one_isFin.sub ((h2 l).mul (h2 l)))).mul (hW2 j l)
  funext j
  unfold gradR gradK
  simp only [e2]
  refine Finset.sum_congr rfl fun k _ => ?_
  rw [deriv_forms (hd k) (h1 k)]

end grad

/-! ### One step, then three -/

theorem isFin_zero_sub {x : EReal} (hx : IsFin x) : IsFin (zero - x) := by rw [zero_sub_eq]; exact hx.neg

/-- With two gradients that agree on rows of reals, the second keeping rows of reals real, one step from a state of
    reals is the same under either gradient and either spelling of the negation, and lands on a state of reals. -/
theorem step_eq (gR gK : Row → Row) (hg : ∀ s : Row, (∀ j, IsFin (s j)) → gR s = gK s)
    (hf : ∀ s : Row, (∀ j, IsFin (s j)) → ∀ j, IsFin (gK s j))
    (qp : Half × Half) (hq : ∀ k, IsFin (qp.1 k)) (hp : ∀ k, IsFin (qp.2 k)) :
    step gR (fun x => -x) qp = step gK (fun x => zero - x) qp
      ∧ (∀ k, IsFin ((step gK (fun x => zero - x) qp).1 k)) ∧ (∀ k, IsFin ((step gK (fun x => zero - x) qp).2 k)) := by
  have hn : (fun x : EReal => -x) = (fun x => zero - x) := funext fun x => (zero_sub_eq x).symm
  have hc := cat_isFin hq hp
  have hd := hf _ hc
  have hp1 : ∀ k, IsFin (qp.2 k + halfDt * (zero - lo (gK (cat qp.1 qp.2)) k)) :=
    fun k => (hp k).add (halfDt_isFin.mul (isFin_zero_sub (lo_isFin hd k)))
  have hq1 : ∀ k, IsFin (qp.1 k + dt * hi (gK (cat qp.1 qp.2)) k) :=
    fun k => (hq k).add (dt_isFin.mul (hi_isFin hd k))
  have hc2 := cat_isFin hq1 hp1
  have hd2 := hf _ hc2
  refine ⟨?_, ?_, ?_⟩
  · rw [hn]
    unfold step
    simp only [hg _ hc, hg _ hc2]
  · exact hq1
  · intro k
    exact (hp1 k).add (halfDt_isFin.mul (isFin_zero_sub (lo_isFin hd2 k)))

section main

variable (W1 : Fin 256 → Fin 256 → EReal) (b1 : Row) (W2 : Fin 256 → Fin 256 → EReal) (b2 : Row) (wo : Row)
  (xl xp : Half)
  (hW1 : ∀ a b, IsFin (W1 a b)) (hb1 : ∀ a, IsFin (b1 a)) (hW2 : ∀ a b, IsFin (W2 a b)) (hb2 : ∀ a, IsFin (b2 a))
  (hwo : ∀ a, IsFin (wo a)) (hxl : ∀ k, IsFin (xl k)) (hxp : ∀ k, IsFin (xp k))

include hW1 hb1 hW2 hb2 hwo hxl hxp

/-- Three steps under either gradient agree, and the kernel's three steps end on a state of reals. -/
theorem leap_both :
    outR W1 b1 W2 b2 wo xl xp = outK W1 b1 W2 b2 wo xl xp ∧ ∀ j, IsFin (outK W1 b1 W2 b2 wo xl xp j) := by
  have hg := fun (s : Row) (hs : ∀ j, IsFin (s j)) => gradR_eq_gradK hW1 hb1 hW2 hb2 hwo hs
  have hf := fun (s : Row) (hs : ∀ j, IsFin (s j)) => gradK_isFin hW1 hb1 hW2 hb2 hwo hs
  have hp0 : ∀ k, IsFin (xl k - xp k) := fun k => (hxl k).sub (hxp k)
  obtain ⟨e1, q1, p1⟩ := step_eq _ _ hg hf (xl, fun k => xl k - xp k) hxl hp0
  obtain ⟨e2, q2, p2⟩ := step_eq _ _ hg hf _ q1 p1
  obtain ⟨e3, q3, p3⟩ := step_eq _ _ hg hf _ q2 p2
  refine ⟨?_, ?_⟩
  · unfold outR outK leap
    simp only [e1, e2, e3]
  · unfold outK leap
    exact cat_isFin q3 p3

end main

/-- On finite weights, biases and inputs the automatic-differentiation row equals the hand back-propagation row. -/
theorem outR_eq_outK (W1 : Fin 256 → Fin 256 → EReal) (b1 : Row) (W2 : Fin 256 → Fin 256 → EReal) (b2 : Row) (wo : Row)
    (xl xp : Half)
    (hW1 : ∀ a b, IsFin (W1 a b)) (hb1 : ∀ a, IsFin (b1 a)) (hW2 : ∀ a b, IsFin (W2 a b)) (hb2 : ∀ a, IsFin (b2 a))
    (hwo : ∀ a, IsFin (wo a)) (hxl : ∀ k, IsFin (xl k)) (hxp : ∀ k, IsFin (xp k)) :
    outR W1 b1 W2 b2 wo xl xp = outK W1 b1 W2 b2 wo xl xp :=
  (leap_both W1 b1 W2 b2 wo xl xp hW1 hb1 hW2 hb2 hwo hxl hxp).1

/-- On finite weights, biases and inputs the hand back-propagation row is a row of real numbers. -/
theorem outK_isFin (W1 : Fin 256 → Fin 256 → EReal) (b1 : Row) (W2 : Fin 256 → Fin 256 → EReal) (b2 : Row) (wo : Row)
    (xl xp : Half)
    (hW1 : ∀ a b, IsFin (W1 a b)) (hb1 : ∀ a, IsFin (b1 a)) (hW2 : ∀ a b, IsFin (W2 a b)) (hb2 : ∀ a, IsFin (b2 a))
    (hwo : ∀ a, IsFin (wo a)) (hxl : ∀ k, IsFin (xl k)) (hxp : ∀ k, IsFin (xp k)) :
    ∀ j, IsFin (outK W1 b1 W2 b2 wo xl xp j) :=
  (leap_both W1 b1 W2 b2 wo xl xp hW1 hb1 hW2 hb2 hwo hxl hxp).2

end Cert.Leapfrog

end
-- ==== Proof.ReferenceRows.lean ====
/-
  The reference program, row by row. Its host operations act on each of the 65536 batch rows by itself: a dot_general
  with a weight matrix contracts the row's 256 entries, tanh and the arithmetic are entrywise, concatenation and
  slicing along the columns re-lay one row. So the result array, at row R and column j, is the leapfrog row
  `Leapfrog.outR` of row R of the last two time steps of the input.
-/
import proofs.«151128_j2671469658242_1_alg».proof.Proof.Leapfrog
import proofs.«151128_j2671469658242_1_alg».proof.Proof.Gen.ReferenceIdeal.Run
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceRows

open Idealize.ShloMosaic Idealize.ShloMosaic.ValueIdx Idealize.ShloMosaic.StableHlo Cert.ReferenceIdeal Cert.ReferenceIdeal.Value

/-! ## The three contractions, read at a row and a column -/

/-- Row times matrix: the left operand's row axis is the result's. -/
theorem lhs10_0 (j : S65536x256.Idx) (k : dot_S65536x256_S256x256_S65536x256_1_0_0_1_n_n.contr.Idx) :
    (dot_S65536x256_S256x256_S65536x256_1_0_0_1_n_n.lhsIdx j k 0).val = (j 0).val := by
  unfold DotDims.lhsIdx
  rw [dif_neg (show ¬ (0 : Fin S65536x256.rank) ∈ dot_S65536x256_S256x256_S65536x256_1_0_0_1_n_n.lhsBatch by decide),
    dif_pos (show (0 : Fin S65536x256.rank) ∈ dot_S65536x256_S256x256_S65536x256_1_0_0_1_n_n.lhsNonContracting by decide)]
  rfl
theorem lhs10_1 (j : S65536x256.Idx) (k : dot_S65536x256_S256x256_S65536x256_1_0_0_1_n_n.contr.Idx) :
    (dot_S65536x256_S256x256_S65536x256_1_0_0_1_n_n.lhsIdx j k 1).val = (k ⟨0, by decide⟩).val :=
  dot_S65536x256_S256x256_S65536x256_1_0_0_1_n_n.lhsIdx_val_of_single rfl j k
theorem rhs10_0 (j : S65536x256.Idx) (k : dot_S65536x256_S256x256_S65536x256_1_0_0_1_n_n.contr.Idx) :
    (dot_S65536x256_S256x256_S65536x256_1_0_0_1_n_n.rhsIdx j k 0).val = (k ⟨0, by decide⟩).val :=
  dot_S65536x256_S256x256_S65536x256_1_0_0_1_n_n.rhsIdx_val_of_single rfl j k
theorem rhs10_1 (j : S65536x256.Idx) (k : dot_S65536x256_S256x256_S65536x256_1_0_0_1_n_n.contr.Idx) :
    (dot_S65536x256_S256x256_S65536x256_1_0_0_1_n_n.rhsIdx j k 1).val = (j 1).val := by
  unfold DotDims.rhsIdx
  rw [dif_neg (show ¬ (1 : Fin S256x256.rank) ∈ dot_S65536x256_S256x256_S65536x256_1_0_0_1_n_n.rhsBatch by decide),
    dif_pos (show (1 : Fin S256x256.rank) ∈ dot_S65536x256_S256x256_S65536x256_1_0_0_1_n_n.rhsNonContracting by decide)]
  rfl

theorem dot10_apply (s : FVec Ideal S65536x256 .f32) (W : FVec Ideal S256x256 .f32) (R : Fin 65536) (j : Fin 256) :
    Host.dotGeneral (F := Ideal) dot_S65536x256_S256x256_S65536x256_1_0_0_1_n_n none s W (ix2 R j)
      = ∑ k : Fin 256, s (ix2 R k) * W (ix2 k j) := by
  show FloatOps.dotGeneral _ none _ s W (ix2 R j) = _
  rw [Ideal.dotGeneral_apply,
    ← Equiv.sum_comp (contrEquiv1 dot_S65536x256_S256x256_S65536x256_1_0_0_1_n_n 256 rfl rfl).symm]
  refine Finset.sum_congr rfl fun c _ => ?_
  have hc := contrEquiv1_symm_val dot_S65536x256_S256x256_S65536x256_1_0_0_1_n_n 256 rfl rfl c
  have hl : dot_S65536x256_S256x256_S65536x256_1_0_0_1_n_n.lhsIdx (ix2 R j)
      ((contrEquiv1 dot_S65536x256_S256x256_S65536x256_1_0_0_1_n_n 256 rfl rfl).symm c) = ix2 R c := by
    funext ax; apply Fin.ext
    match ax with
    | ⟨0, _⟩ => exact lhs10_0 _ _
    | ⟨1, _⟩ => exact (lhs10_1 _ _).trans hc
  have hr : dot_S65536x256_S256x256_S65536x256_1_0_0_1_n_n.rhsIdx (ix2 R j)
      ((contrEquiv1 dot_S65536x256_S256x256_S65536x256_1_0_0_1_n_n 256 rfl rfl).symm c) = ix2 c j := by
    funext ax; apply Fin.ext
    match ax with
    | ⟨0, _⟩ => exact (rhs10_0 _ _).trans hc
    | ⟨1, _⟩ => exact rhs10_1 _ _
  rw [hl, hr]

/-- Row times transposed matrix: both operands are contracted on their column axis. -/
theorem lhs11_0 (j : S65536x256.Idx) (k : dot_S65536x256_S256x256_S65536x256_1_1_0_0_n_n.contr.Idx) :
    (dot_S65536x256_S256x256_S65536x256_1_1_0_0_n_n.lhsIdx j k 0).val = (j 0).val := by
  unfold DotDims.lhsIdx
  rw [dif_neg (show ¬ (0 : Fin S65536x256.rank) ∈ dot_S65536x256_S256x256_S65536x256_1_1_0_0_n_n.lhsBatch by decide),
    dif_pos (show (0 : Fin S65536x256.rank) ∈ dot_S65536x256_S256x256_S65536x256_1_1_0_0_n_n.lhsNonContracting by decide)]
  rfl
theorem lhs11_1 (j : S65536x256.Idx) (k : dot_S65536x256_S256x256_S65536x256_1_1_0_0_n_n.contr.Idx) :
    (dot_S65536x256_S256x256_S65536x256_1_1_0_0_n_n.lhsIdx j k 1).val = (k ⟨0, by decide⟩).val :=
  dot_S65536x256_S256x256_S65536x256_1_1_0_0_n_n.lhsIdx_val_of_single rfl j k
theorem rhs11_0 (j : S65536x256.Idx) (k : dot_S65536x256_S256x256_S65536x256_1_1_0_0_n_n.contr.Idx) :
    (dot_S65536x256_S256x256_S65536x256_1_1_0_0_n_n.rhsIdx j k 0).val = (j 1).val := by
  unfold DotDims.rhsIdx
  rw [dif_neg (show ¬ (0 : Fin S256x256.rank) ∈ dot_S65536x256_S256x256_S65536x256_1_1_0_0_n_n.rhsBatch by decide),
    dif_pos (show (0 : Fin S256x256.rank) ∈ dot_S65536x256_S256x256_S65536x256_1_1_0_0_n_n.rhsNonContracting by decide)]
  rfl
theorem rhs11_1 (j : S65536x256.Idx) (k : dot_S65536x256_S256x256_S65536x256_1_1_0_0_n_n.contr.Idx) :
    (dot_S65536x256_S256x256_S65536x256_1_1_0_0_n_n.rhsIdx j k 1).val = (k ⟨0, by decide⟩).val :=
  dot_S65536x256_S256x256_S65536x256_1_1_0_0_n_n.rhsIdx_val_of_single rfl j k

theorem dot11_apply (s : FVec Ideal S65536x256 .f32) (W : FVec Ideal S256x256 .f32) (R : Fin 65536) (j : Fin 256) :
    Host.dotGeneral (F := Ideal) dot_S65536x256_S256x256_S65536x256_1_1_0_0_n_n none s W (ix2 R j)
      = ∑ k : Fin 256, s (ix2 R k) * W (ix2 j k) := by
  show FloatOps.dotGeneral _ none _ s W (ix2 R j) = _
  rw [Ideal.dotGeneral_apply,
    ← Equiv.sum_comp (contrEquiv1 dot_S65536x256_S256x256_S65536x256_1_1_0_0_n_n 256 rfl rfl).symm]
  refine Finset.sum_congr rfl fun c _ => ?_
  have hc := contrEquiv1_symm_val dot_S65536x256_S256x256_S65536x256_1_1_0_0_n_n 256 rfl rfl c
  have hl : dot_S65536x256_S256x256_S65536x256_1_1_0_0_n_n.lhsIdx (ix2 R j)
      ((contrEquiv1 dot_S65536x256_S256x256_S65536x256_1_1_0_0_n_n 256 rfl rfl).symm c) = ix2 R c := by
    funext ax; apply Fin.ext
    match ax with
    | ⟨0, _⟩ => exact lhs11_0 _ _
    | ⟨1, _⟩ => exact (lhs11_1 _ _).trans hc
  have hr : dot_S65536x256_S256x256_S65536x256_1_1_0_0_n_n.rhsIdx (ix2 R j)
      ((contrEquiv1 dot_S65536x256_S256x256_S65536x256_1_1_0_0_n_n 256 rfl rfl).symm c) = ix2 j c := by
    funext ax; apply Fin.ext
    match ax with
    | ⟨0, _⟩ => exact rhs11_0 _ _
    | ⟨1, _⟩ => exact (rhs11_1 _ _).trans hc
  rw [hl, hr]

/-- A column times a transposed column: the contracted axis has one entry. -/
theorem lhsW_0 (j : S65536x256.Idx) (k : dot_S65536x1_S256x1_S65536x256_1_1_0_0_n_n.contr.Idx) :
    (dot_S65536x1_S256x1_S65536x256_1_1_0_0_n_n.lhsIdx j k 0).val = (j 0).val := by
  unfold DotDims.lhsIdx
  rw [dif_neg (show ¬ (0 : Fin S65536x1.rank) ∈ dot_S65536x1_S256x1_S65536x256_1_1_0_0_n_n.lhsBatch by decide),
    dif_pos (show (0 : Fin S65536x1.rank) ∈ dot_S65536x1_S256x1_S65536x256_1_1_0_0_n_n.lhsNonContracting by decide)]
  rfl
theorem lhsW_1 (j : S65536x256.Idx) (k : dot_S65536x1_S256x1_S65536x256_1_1_0_0_n_n.contr.Idx) :
    (dot_S65536x1_S256x1_S65536x256_1_1_0_0_n_n.lhsIdx j k 1).val = (k ⟨0, by decide⟩).val :=
  dot_S65536x1_S256x1_S65536x256_1_1_0_0_n_n.lhsIdx_val_of_single rfl j k
theorem rhsW_0 (j : S65536x256.Idx) (k : dot_S65536x1_S256x1_S65536x256_1_1_0_0_n_n.contr.Idx) :
    (dot_S65536x1_S256x1_S65536x256_1_1_0_0_n_n.rhsIdx j k 0).val = (j 1).val := by
  unfold DotDims.rhsIdx
  rw [dif_neg (show ¬ (0 : Fin S256x1.rank) ∈ dot_S65536x1_S256x1_S65536x256_1_1_0_0_n_n.rhsBatch by decide),
    dif_pos (show (0 : Fin S256x1.rank) ∈ dot_S65536x1_S256x1_S65536x256_1_1_0_0_n_n.rhsNonContracting by decide)]
  rfl
theorem rhsW_1 (j : S65536x256.Idx) (k : dot_S65536x1_S256x1_S65536x256_1_1_0_0_n_n.contr.Idx) :
    (dot_S65536x1_S256x1_S65536x256_1_1_0_0_n_n.rhsIdx j k 1).val = (k ⟨0, by decide⟩).val :=
  dot_S65536x1_S256x1_S65536x256_1_1_0_0_n_n.rhsIdx_val_of_single rfl j k

theorem dotW_apply (s : FVec Ideal S65536x1 .f32) (W : FVec Ideal S256x1 .f32) (R : Fin 65536) (j : Fin 256) :
    Host.dotGeneral (F := Ideal) dot_S65536x1_S256x1_S65536x256_1_1_0_0_n_n none s W (ix2 R j)
      = s (ix2 R (0 : Fin 1)) * W (ix2 j (0 : Fin 1)) := by
  show FloatOps.dotGeneral _ none _ s W (ix2 R j) = _
  rw [Ideal.dotGeneral_apply,
    ← Equiv.sum_comp (contrEquiv1 dot_S65536x1_S256x1_S65536x256_1_1_0_0_n_n 1 rfl rfl).symm, Fin.sum_univ_one]
  have hc := contrEquiv1_symm_val dot_S65536x1_S256x1_S65536x256_1_1_0_0_n_n 1 rfl rfl (0 : Fin 1)
  have hl : dot_S65536x1_S256x1_S65536x256_1_1_0_0_n_n.lhsIdx (ix2 R j)
      ((contrEquiv1 dot_S65536x1_S256x1_S65536x256_1_1_0_0_n_n 1 rfl rfl).symm 0) = ix2 R (0 : Fin 1) := by
    funext ax; apply Fin.ext
    match ax with
    | ⟨0, _⟩ => exact lhsW_0 _ _
    | ⟨1, _⟩ => exact (lhsW_1 _ _).trans hc
  have hr : dot_S65536x1_S256x1_S65536x256_1_1_0_0_n_n.rhsIdx (ix2 R j)
      ((contrEquiv1 dot_S65536x1_S256x1_S65536x256_1_1_0_0_n_n 1 rfl rfl).symm 0) = ix2 j (0 : Fin 1) := by
    funext ax; apply Fin.ext
    match ax with
    | ⟨0, _⟩ => exact rhsW_0 _ _
    | ⟨1, _⟩ => exact (rhsW_1 _ _).trans hc
  rw [hl, hr]

/-! ## Broadcasts, concatenation, slices -/

/-- A scalar constant broadcast to any shape reads the word's value everywhere. -/
theorem bcast_const_apply {t : Shape} (h : S_.BroadcastsInDim t (![] : Fin 0 → Fin t.rank)) (w : BitVec FTy.f32.bits) (i : t.Idx) :
    broadcastInDim t ![] h (constant (F := Ideal) S_ .f32 w) i = Ideal.ofBits .f32 w :=
  broadcastInDim_apply _ h _ i ix0 (fun a => a.elim0)

/-- A bias vector laid along the columns of every row. -/
theorem bcast_bias_apply (h1 : S256.BroadcastsInDim S1x256 (![1] : Fin 1 → Fin S1x256.rank))
    (h2 : S1x256.BroadcastsInDim S65536x256 (![0, 1] : Fin 2 → Fin S65536x256.rank))
    (b : FVec Ideal S256 .f32) (R : Fin 65536) (j : Fin 256) :
    broadcastInDim S65536x256 ![0, 1] h2 (broadcastInDim S1x256 ![1] h1 b) (ix2 R j) = b (ix1 j) := by
  refine (broadcastInDim_apply _ h2 _ (ix2 R j) (ix2 (0 : Fin 1) j) (fun a => ?_)).trans
    (broadcastInDim_apply _ h1 _ (ix2 (0 : Fin 1) j) (ix1 j) (fun a => ?_))
  · match a with
    | ⟨0, _⟩ => rfl
    | ⟨1, _⟩ => rfl
  · match a with
    | ⟨0, _⟩ => rfl

/-- Two halves side by side, read along a row. -/
theorem concat_apply (h : Shape.Concatenates [S65536x128, S65536x128] S65536x256 1)
    (q p : FVec Ideal S65536x128 .f32) (R : Fin 65536) (j : Fin 256) :
    concatenate S65536x256 1 [⟨S65536x128, q⟩, ⟨S65536x128, p⟩] h (ix2 R j)
      = Cert.Leapfrog.cat (fun k => q (ix2 R k)) (fun k => p (ix2 R k)) j := by
  unfold Cert.Leapfrog.cat
  by_cases hj : j.val < 128
  · rw [dif_pos hj]
    refine concatenate_pair_apply_left (1 : Fin S65536x256.rank) q p h (ix2 R j) rfl (ix2 R ⟨j.val, hj⟩) (fun b => ?_)
    match b with
    | ⟨0, _⟩ => rfl
    | ⟨1, _⟩ => rfl
  · rw [dif_neg hj]
    refine concatenate_pair_apply_right (1 : Fin S65536x256.rank) q p h (ix2 R j) rfl rfl
      (ix2 R ⟨j.val - 128, by omega⟩) (fun b hb => ?_) ?_
    · match b with
      | ⟨0, _⟩ => rfl
      | ⟨1, _⟩ => exact absurd rfl hb
    · show j.val - 128 + 128 = j.val
      omega

/-- The first 128 columns of a row. -/
theorem slice_lo_apply (h : S65536x256.Slices ![0, 0] S65536x128) (g : FVec Ideal S65536x256 .f32) (R : Fin 65536) (k : Fin 128) :
    extractStridedSlice S65536x128 ![0, 0] g h (ix2 R k) = Cert.Leapfrog.lo (fun j => g (ix2 R j)) k :=
  slice2_axis1_apply 0 g h R k ⟨k.val, by omega⟩ (Nat.zero_add _).symm

/-- The last 128 columns of a row. -/
theorem slice_hi_apply (h : S65536x256.Slices ![0, 128] S65536x128) (g : FVec Ideal S65536x256 .f32) (R : Fin 65536) (k : Fin 128) :
    extractStridedSlice S65536x128 ![0, 128] g h (ix2 R k) = Cert.Leapfrog.hi (fun j => g (ix2 R j)) k :=
  slice2_axis1_apply 128 g h R k ⟨k.val + 128, by omega⟩ (Nat.add_comm _ _)

/-- One time step of the input, as a half row. -/
theorem time_slice_apply (o : Nat) (t : Fin 16) (ht : t.val = o) (h : S65536x16x128.Slices ![0, o, 0] S65536x1x128)
    (hc : S65536x1x128.ShapeCasts S65536x128) (x : FVec Ideal S65536x16x128 .f32) (R : Fin 65536) (k : Fin 128) :
    shapeCast S65536x128 (extractStridedSlice S65536x1x128 ![0, o, 0] x h) hc (ix2 R k) = x (ix3 R t k) := by
  refine (shapeCast_apply _ hc (ix2 R k) (ix3 R (0 : Fin 1) k) ?_).trans
    (slice3_axis1_apply o x h R (0 : Fin 1) k t (by rw [ht]; rfl))
  rw [Shape.rowMajor_val_three, Shape.rowMajor_val_two]
  show (R.val * 1 + 0) * 128 + k.val = R.val * 128 + k.val
  omega

/-! ## Rows of arrays, and the arguments as the row mathematics reads them -/

/-- Row R of a state or hidden-layer array. -/
def row (s : FVec Ideal S65536x256 .f32) (R : Fin 65536) : Cert.Leapfrog.Row := fun j => s (ix2 R j)
/-- Row R of an array of half rows. -/
def rowH (s : FVec Ideal S65536x128 .f32) (R : Fin 65536) : Cert.Leapfrog.Half := fun k => s (ix2 R k)
/-- A weight matrix by its two coordinates. -/
abbrev mat (W : FVec Ideal S256x256 .f32) : Fin 256 → Fin 256 → EReal := fun a b => W (ix2 a b)
/-- A bias vector by its coordinate. -/
abbrev vec (b : FVec Ideal S256 .f32) : Cert.Leapfrog.Row := fun a => b (ix1 a)
/-- The output weights, a 256 × 1 column, by their row coordinate. -/
abbrev col (Wo : FVec Ideal S256x1 .f32) : Cert.Leapfrog.Row := fun a => Wo (ix2 a (0 : Fin 1))

/-! ## The repeating pieces of the program, as functions of arrays -/

/-- q and p side by side, on every row. -/
def catV (q p : FVec Ideal S65536x128 .f32) : FVec Ideal S65536x256 .f32 :=
  concatenate S65536x256 1 [⟨S65536x128, q⟩, ⟨S65536x128, p⟩] Gen.concatenates_S65536x128_S65536x128_S65536x256_d1

/-- One layer on every row. -/
def hidV (W : FVec Ideal S256x256 .f32) (b : FVec Ideal S256 .f32) (s : FVec Ideal S65536x256 .f32) : FVec Ideal S65536x256 .f32 :=
  Host.tanh (addf (Host.dotGeneral dot_S65536x256_S256x256_S65536x256_1_0_0_1_n_n none s W)
    (broadcastInDim S65536x256 ![0, 1] Gen.bcast_S1x256_S65536x256_0_1 (broadcastInDim S1x256 ![1] Gen.bcast_S256_S1x256_1 b)))

/-- The cotangent of the second layer's pre-activation, first factor of the tanh derivative included. -/
def a2V (Wo : FVec Ideal S256x1 .f32) (h2 : FVec Ideal S65536x256 .f32) : FVec Ideal S65536x256 .f32 :=
  mulf (Host.dotGeneral dot_S65536x1_S256x1_S65536x256_1_1_0_0_n_n none
      (broadcastInDim S65536x1 ![] Gen.bcast_S_S65536x1 (constant S_ .f32 0x3F800000#32)) Wo)
    (subf (broadcastInDim S65536x256 ![] Gen.bcast_S_S65536x256 (constant S_ .f32 0x3F800000#32)) h2)

/-- The cotangent of the first layer's pre-activation, first factor of the tanh derivative included. -/
def a1V (W2 : FVec Ideal S256x256 .f32) (a2 h2 h1 : FVec Ideal S65536x256 .f32) : FVec Ideal S65536x256 .f32 :=
  mulf (Host.dotGeneral dot_S65536x256_S256x256_S65536x256_1_1_0_0_n_n none (addf a2 (mulf a2 h2)) W2)
    (subf (broadcastInDim S65536x256 ![] Gen.bcast_S_S65536x256 (constant S_ .f32 0x3F800000#32)) h1)

/-- The gradient with respect to the state, from the first layer's cotangent. -/
def gV (W1 : FVec Ideal S256x256 .f32) (a1 h1 : FVec Ideal S65536x256 .f32) : FVec Ideal S65536x256 .f32 :=
  Host.dotGeneral dot_S65536x256_S256x256_S65536x256_1_1_0_0_n_n none (addf a1 (mulf a1 h1)) W1

/-- One gradient evaluation on every row. -/
def gradV (W1 : FVec Ideal S256x256 .f32) (b1 : FVec Ideal S256 .f32) (W2 : FVec Ideal S256x256 .f32) (b2 : FVec Ideal S256 .f32)
    (Wo : FVec Ideal S256x1 .f32) (s : FVec Ideal S65536x256 .f32) : FVec Ideal S65536x256 .f32 :=
  gV W1 (a1V W2 (a2V Wo (hidV W2 b2 (hidV W1 b1 s))) (hidV W2 b2 (hidV W1 b1 s)) (hidV W1 b1 s)) (hidV W1 b1 s)

/-- The momentum update: p − (dt/2)·(first half of the gradient). -/
def pUpd (p : FVec Ideal S65536x128 .f32) (g : FVec Ideal S65536x256 .f32) : FVec Ideal S65536x128 .f32 :=
  addf p (mulf (broadcastInDim S65536x128 ![] Gen.bcast_S_S65536x128 (constant S_ .f32 0x3D4CCCCD#32))
    (Host.negf (extractStridedSlice S65536x128 ![0, 0] g Gen.slices_S65536x256_S65536x128_0_0)))

/-- The position update: q + dt·(second half of the gradient). -/
def qUpd (q : FVec Ideal S65536x128 .f32) (g : FVec Ideal S65536x256 .f32) : FVec Ideal S65536x128 .f32 :=
  addf q (mulf (broadcastInDim S65536x128 ![] Gen.bcast_S_S65536x128 (constant S_ .f32 0x3DCCCCCD#32))
    (extractStridedSlice S65536x128 ![0, 128] g Gen.slices_S65536x256_S65536x128_0_128))

/-- The new q of one leapfrog step. -/
def stepQ (grad : FVec Ideal S65536x256 .f32 → FVec Ideal S65536x256 .f32) (Q P : FVec Ideal S65536x128 .f32) :
    FVec Ideal S65536x128 .f32 :=
  qUpd Q (grad (catV Q P))

/-- The new p of one leapfrog step: two half updates, the second at the new q. -/
def stepP (grad : FVec Ideal S65536x256 .f32 → FVec Ideal S65536x256 .f32) (Q P : FVec Ideal S65536x128 .f32) :
    FVec Ideal S65536x128 .f32 :=
  pUpd (pUpd P (grad (catV Q P))) (grad (catV (stepQ grad Q P) (pUpd P (grad (catV Q P)))))

/-! ## Each piece acts on every row by itself -/

theorem row_catV (q p : FVec Ideal S65536x128 .f32) (R : Fin 65536) :
    row (catV q p) R = Cert.Leapfrog.cat (rowH q R) (rowH p R) :=
  funext fun j => concat_apply Gen.concatenates_S65536x128_S65536x128_S65536x256_d1 q p R j

theorem row_hidV (W : FVec Ideal S256x256 .f32) (b : FVec Ideal S256 .f32) (s : FVec Ideal S65536x256 .f32) (R : Fin 65536) :
    row (hidV W b s) R = Cert.Leapfrog.hidden (mat W) (vec b) (row s R) := by
  funext j
  show Ideal.tanh (Host.dotGeneral (F := Ideal) dot_S65536x256_S256x256_S65536x256_1_0_0_1_n_n none s W (ix2 R j)
    + broadcastInDim S65536x256 ![0, 1] Gen.bcast_S1x256_S65536x256_0_1 (broadcastInDim S1x256 ![1] Gen.bcast_S256_S1x256_1 b) (ix2 R j)) = _
  rw [dot10_apply, bcast_bias_apply]
  rfl

theorem row_a2V (Wo : FVec Ideal S256x1 .f32) (h2 : FVec Ideal S65536x256 .f32) (R : Fin 65536) :
    row (a2V Wo h2) R = fun j => (Cert.Leapfrog.one * col Wo j) * (Cert.Leapfrog.one - row h2 R j) := by
  funext j
  show Host.dotGeneral (F := Ideal) dot_S65536x1_S256x1_S65536x256_1_1_0_0_n_n none
      (broadcastInDim S65536x1 ![] Gen.bcast_S_S65536x1 (constant (F := Ideal) S_ .f32 0x3F800000#32)) Wo (ix2 R j)
    * (broadcastInDim S65536x256 ![] Gen.bcast_S_S65536x256 (constant (F := Ideal) S_ .f32 0x3F800000#32) (ix2 R j) - h2 (ix2 R j)) = _
  rw [dotW_apply, bcast_const_apply, bcast_const_apply]
  rfl

theorem row_a1V (W2 : FVec Ideal S256x256 .f32) (a2 h2 h1 : FVec Ideal S65536x256 .f32) (R : Fin 65536) :
    row (a1V W2 a2 h2 h1) R
      = fun j => (∑ k, (row a2 R k + row a2 R k * row h2 R k) * mat W2 j k) * (Cert.Leapfrog.one - row h1 R j) := by
  funext j
  show Host.dotGeneral (F := Ideal) dot_S65536x256_S256x256_S65536x256_1_1_0_0_n_n none (addf a2 (mulf a2 h2)) W2 (ix2 R j)
    * (broadcastInDim S65536x256 ![] Gen.bcast_S_S65536x256 (constant (F := Ideal) S_ .f32 0x3F800000#32) (ix2 R j) - h1 (ix2 R j)) = _
  rw [dot11_apply, bcast_const_apply]
  rfl

theorem row_gV (W1 : FVec Ideal S256x256 .f32) (a1 h1 : FVec Ideal S65536x256 .f32) (R : Fin 65536) :
    row (gV W1 a1 h1) R = fun j => ∑ k, (row a1 R k + row a1 R k * row h1 R k) * mat W1 j k := by
  funext j
  show Host.dotGeneral (F := Ideal) dot_S65536x256_S256x256_S65536x256_1_1_0_0_n_n none (addf a1 (mulf a1 h1)) W1 (ix2 R j) = _
  rw [dot11_apply]
  rfl

/-- One gradient evaluation, on row R, is the row's gradient as automatic differentiation writes it. -/
theorem row_gradV (W1 : FVec Ideal S256x256 .f32) (b1 : FVec Ideal S256 .f32) (W2 : FVec Ideal S256x256 .f32) (b2 : FVec Ideal S256 .f32)
    (Wo : FVec Ideal S256x1 .f32) (s : FVec Ideal S65536x256 .f32) (R : Fin 65536) :
    row (gradV W1 b1 W2 b2 Wo s) R = Cert.Leapfrog.gradR (mat W1) (vec b1) (mat W2) (vec b2) (col Wo) (row s R) := by
  unfold gradV
  rw [row_gV, row_a1V, row_a2V, row_hidV, row_hidV]
  rfl

theorem rowH_pUpd (p : FVec Ideal S65536x128 .f32) (g : FVec Ideal S65536x256 .f32) (R : Fin 65536) :
    rowH (pUpd p g) R = fun k => rowH p R k + Cert.Leapfrog.halfDt * -(Cert.Leapfrog.lo (row g R) k) := by
  funext k
  show p (ix2 R k) + broadcastInDim S65536x128 ![] Gen.bcast_S_S65536x128 (constant (F := Ideal) S_ .f32 0x3D4CCCCD#32) (ix2 R k)
    * -(extractStridedSlice S65536x128 ![0, 0] g Gen.slices_S65536x256_S65536x128_0_0 (ix2 R k)) = _
  rw [bcast_const_apply, slice_lo_apply]
  rfl

theorem rowH_qUpd (q : FVec Ideal S65536x128 .f32) (g : FVec Ideal S65536x256 .f32) (R : Fin 65536) :
    rowH (qUpd q g) R = fun k => rowH q R k + Cert.Leapfrog.dt * Cert.Leapfrog.hi (row g R) k := by
  funext k
  show q (ix2 R k) + broadcastInDim S65536x128 ![] Gen.bcast_S_S65536x128 (constant (F := Ideal) S_ .f32 0x3DCCCCCD#32) (ix2 R k)
    * extractStridedSlice S65536x128 ![0, 128] g Gen.slices_S65536x256_S65536x128_0_128 (ix2 R k) = _
  rw [bcast_const_apply, slice_hi_apply]
  rfl

/-- One leapfrog step of the arrays is, on row R, one leapfrog step of the row. -/
theorem row_step (grad : FVec Ideal S65536x256 .f32 → FVec Ideal S65536x256 .f32) (G : Cert.Leapfrog.Row → Cert.Leapfrog.Row)
    (R : Fin 65536) (hG : ∀ s, row (grad s) R = G (row s R)) (Q P : FVec Ideal S65536x128 .f32) :
    (rowH (stepQ grad Q P) R, rowH (stepP grad Q P) R) = Cert.Leapfrog.step G (fun x => -x) (rowH Q R, rowH P R) := by
  unfold stepP stepQ Cert.Leapfrog.step
  rw [rowH_pUpd, rowH_pUpd, rowH_qUpd, hG, hG, row_catV, row_catV, rowH_qUpd, rowH_pUpd, hG, row_catV]

/-! ## The program's named buffers are these pieces of one another -/

/-- The program's gradient evaluation at its argument arrays. -/
abbrev gradA (V0 : Valuation τ sig (Elt Ideal)) : FVec Ideal S65536x256 .f32 → FVec Ideal S65536x256 .f32 :=
  gradV (V0 (Proc.devRef .tc main_arg1)) (V0 (Proc.devRef .tc main_arg2)) (V0 (Proc.devRef .tc main_arg3))
    (V0 (Proc.devRef .tc main_arg4)) (V0 (Proc.devRef .tc main_arg5))

theorem q1_eq (V0 : Valuation τ sig (Elt Ideal)) :
    (res_main_v42 V0 : FVec Ideal S65536x128 .f32) = stepQ (gradA V0) (res_main_v1 V0) (res_main_v6 V0) := rfl
theorem p1_eq (V0 : Valuation τ sig (Elt Ideal)) :
    (res_main_v74 V0 : FVec Ideal S65536x128 .f32) = stepP (gradA V0) (res_main_v1 V0) (res_main_v6 V0) := rfl
theorem q2_eq (V0 : Valuation τ sig (Elt Ideal)) :
    (res_main_v110 V0 : FVec Ideal S65536x128 .f32) = stepQ (gradA V0) (res_main_v42 V0) (res_main_v74 V0) := rfl
theorem p2_eq (V0 : Valuation τ sig (Elt Ideal)) :
    (res_main_v142 V0 : FVec Ideal S65536x128 .f32) = stepP (gradA V0) (res_main_v42 V0) (res_main_v74 V0) := rfl
theorem q3_eq (V0 : Valuation τ sig (Elt Ideal)) :
    (res_main_v178 V0 : FVec Ideal S65536x128 .f32) = stepQ (gradA V0) (res_main_v110 V0) (res_main_v142 V0) := rfl

/-- The two time steps the program starts from. -/
def q0V (x : FVec Ideal S65536x16x128 .f32) : FVec Ideal S65536x128 .f32 :=
  shapeCast S65536x128 (extractStridedSlice S65536x1x128 ![0, 15, 0] x Gen.slices_S65536x16x128_S65536x1x128_0_15_0)
    Gen.shapeCasts_S65536x1x128_S65536x128
def p0V (x : FVec Ideal S65536x16x128 .f32) : FVec Ideal S65536x128 .f32 :=
  subf (shapeCast S65536x128 (extractStridedSlice S65536x1x128 ![0, 15, 0] x Gen.slices_S65536x16x128_S65536x1x128_0_15_0)
      Gen.shapeCasts_S65536x1x128_S65536x128)
    (shapeCast S65536x128 (extractStridedSlice S65536x1x128 ![0, 14, 0] x Gen.slices_S65536x16x128_S65536x1x128_0_14_0)
      Gen.shapeCasts_S65536x1x128_S65536x128)

/-- On row R: q₀ is the last time step, p₀ the last minus the one before. -/
theorem row_start (x : FVec Ideal S65536x16x128 .f32) (R : Fin 65536) :
    (rowH (q0V x) R, rowH (p0V x) R)
      = ((fun k => x (ix3 R (15 : Fin 16) k)), (fun k => x (ix3 R (15 : Fin 16) k) - x (ix3 R (14 : Fin 16) k))) := by
  refine Prod.ext (funext fun k => ?_) (funext fun k => ?_)
  · exact time_slice_apply 15 15 rfl Gen.slices_S65536x16x128_S65536x1x128_0_15_0 Gen.shapeCasts_S65536x1x128_S65536x128 x R k
  · exact congrArg₂ (fun a b : EReal => a - b)
      (time_slice_apply 15 15 rfl Gen.slices_S65536x16x128_S65536x1x128_0_15_0 Gen.shapeCasts_S65536x1x128_S65536x128 x R k)
      (time_slice_apply 14 14 rfl Gen.slices_S65536x16x128_S65536x1x128_0_14_0 Gen.shapeCasts_S65536x1x128_S65536x128 x R k)

/-- The input array. -/
abbrev arrX (V0 : Valuation τ sig (Elt Ideal)) : FVec Ideal S65536x16x128 .f32 := V0 (Proc.devRef .tc main_arg0)

theorem q0_eq (V0 : Valuation τ sig (Elt Ideal)) : (res_main_v1 V0 : FVec Ideal S65536x128 .f32) = q0V (arrX V0) := rfl
theorem p0_eq (V0 : Valuation τ sig (Elt Ideal)) : (res_main_v6 V0 : FVec Ideal S65536x128 .f32) = p0V (arrX V0) := rfl

/-- The result buffer is the third step's q and p side by side. -/
theorem result_eq (V0 : Valuation τ sig (Elt Ideal)) :
    (val5 V0 (Proc.devRef .tc main_v211) : FVec Ideal S65536x256 .f32)
      = catV (stepQ (gradA V0) (res_main_v110 V0) (res_main_v142 V0)) (stepP (gradA V0) (res_main_v110 V0) (res_main_v142 V0)) :=
  val5_main_v211 V0

/-- The row gradient at the program's argument arrays. -/
abbrev gradRow (V0 : Valuation τ sig (Elt Ideal)) : Cert.Leapfrog.Row → Cert.Leapfrog.Row :=
  Cert.Leapfrog.gradR (mat (V0 (Proc.devRef .tc main_arg1))) (vec (V0 (Proc.devRef .tc main_arg2)))
    (mat (V0 (Proc.devRef .tc main_arg3))) (vec (V0 (Proc.devRef .tc main_arg4))) (col (V0 (Proc.devRef .tc main_arg5)))

/-- Row R of the three steps' q and p. -/
theorem row_three (V0 : Valuation τ sig (Elt Ideal)) (R : Fin 65536) :
    (rowH (stepQ (gradA V0) (res_main_v110 V0) (res_main_v142 V0)) R, rowH (stepP (gradA V0) (res_main_v110 V0) (res_main_v142 V0)) R)
      = Cert.Leapfrog.step (gradRow V0) (fun x => -x) (Cert.Leapfrog.step (gradRow V0) (fun x => -x)
          (Cert.Leapfrog.step (gradRow V0) (fun x => -x)
            ((fun k => arrX V0 (ix3 R (15 : Fin 16) k)),
             (fun k => arrX V0 (ix3 R (15 : Fin 16) k) - arrX V0 (ix3 R (14 : Fin 16) k))))) := by
  have hG : ∀ s, row (gradA V0 s) R = gradRow V0 (row s R) := fun s => row_gradV _ _ _ _ _ s R
  refine (row_step (gradA V0) (gradRow V0) R hG (res_main_v110 V0) (res_main_v142 V0)).trans
    (congrArg (Cert.Leapfrog.step (gradRow V0) (fun x => -x)) ?_)
  rw [q2_eq, p2_eq]
  refine (row_step (gradA V0) (gradRow V0) R hG (res_main_v42 V0) (res_main_v74 V0)).trans
    (congrArg (Cert.Leapfrog.step (gradRow V0) (fun x => -x)) ?_)
  rw [q1_eq, p1_eq]
  refine (row_step (gradA V0) (gradRow V0) R hG (res_main_v1 V0) (res_main_v6 V0)).trans
    (congrArg (Cert.Leapfrog.step (gradRow V0) (fun x => -x)) ?_)
  rw [q0_eq, p0_eq]
  exact row_start (arrX V0) R

/-- The reference's result buffer after its run, at row R and column j, is the automatic-differentiation leapfrog row
    of the argument arrays. -/
theorem ref_apply (V0 : Valuation τ sig (Elt Ideal)) (R : Fin 65536) (j : Fin 256) :
    (val5 V0 (Proc.devRef .tc main_v211) : S65536x256.Idx → EReal) (ix2 R j)
      = Cert.Leapfrog.outR (fun a b => (V0 (Proc.devRef .tc main_arg1) : S256x256.Idx → EReal) (ix2 a b))
          (fun a => (V0 (Proc.devRef .tc main_arg2) : S256.Idx → EReal) (ix1 a))
          (fun a b => (V0 (Proc.devRef .tc main_arg3) : S256x256.Idx → EReal) (ix2 a b))
          (fun a => (V0 (Proc.devRef .tc main_arg4) : S256.Idx → EReal) (ix1 a))
          (fun a => (V0 (Proc.devRef .tc main_arg5) : S256x1.Idx → EReal) (ix2 a (0 : Fin 1)))
          (fun k => (V0 (Proc.devRef .tc main_arg0) : S65536x16x128.Idx → EReal) (ix3 R (15 : Fin 16) k))
          (fun k => (V0 (Proc.devRef .tc main_arg0) : S65536x16x128.Idx → EReal) (ix3 R (14 : Fin 16) k)) j := by
  refine (congrFun (result_eq V0) (ix2 R j)).trans ?_
  refine (congrFun (row_catV (stepQ (gradA V0) (res_main_v110 V0) (res_main_v142 V0))
    (stepP (gradA V0) (res_main_v110 V0) (res_main_v142 V0)) R) j).trans ?_
  exact congrArg (fun r : Cert.Leapfrog.Half × Cert.Leapfrog.Half => Cert.Leapfrog.cat r.1 r.2 j) (row_three V0 R)

end Cert.ReferenceRows

end
-- ==== Proof.ReferenceValue.lean ====
/-
  The reference's result array as the same function of the arguments as the kernel's. Row by row the reference computes
  the automatic-differentiation leapfrog row; on finite arguments that row is the hand back-propagation row.
-/
import proofs.«151128_j2671469658242_1_alg».proof.Proof.Leapfrog
import proofs.«151128_j2671469658242_1_alg».proof.Proof.LeapfrogAlgebra
import proofs.«151128_j2671469658242_1_alg».proof.Proof.ReferenceRows

noncomputable section

namespace Cert.ReferenceValue

open Idealize.ShloMosaic Idealize.ShloMosaic.ValueIdx Idealize.ShloMosaic.TcCoe Idealize.SL.Sem Idealize.ShloMosaic.StableHlo
open Cert.ReferenceIdeal Cert.ReferenceIdeal.Value Cert.Leapfrog

variable (m : (ℓ : Loc nD τ sig) → Buf (Elt Ideal) ℓ)

/-- The result array as one function of the argument arrays as launched. -/
def result (c : Dev nD) : S65536x256.Idx → EReal := fun i =>
  G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (i 0) (i 1)

/-- On finite arguments the reference's result buffer after its run is `result`. -/
theorem result_eq (c : Dev nD)
    (h0 : ∀ i, IsFin (m ((c.tc : Thread nD τ).loc main_arg0) i)) (h1 : ∀ i, IsFin (m ((c.tc : Thread nD τ).loc main_arg1) i))
    (h2 : ∀ i, IsFin (m ((c.tc : Thread nD τ).loc main_arg2) i)) (h3 : ∀ i, IsFin (m ((c.tc : Thread nD τ).loc main_arg3) i))
    (h4 : ∀ i, IsFin (m ((c.tc : Thread nD τ).loc main_arg4) i)) (h5 : ∀ i, IsFin (m ((c.tc : Thread nD τ).loc main_arg5) i)) :
    val5 (launchContents m c) (Proc.devRef .tc main_v211) = result m c := by
  funext i
  obtain ⟨R, j, rfl⟩ : ∃ (R : Fin 65536) (j : Fin 256), i = ix2 R j := ⟨i 0, i 1, eq_ix2 i⟩
  refine (Cert.ReferenceRows.ref_apply (launchContents m c) R j).trans ?_
  rw [outR_eq_outK _ _ _ _ _ _ _ (fun a b => h1 _) (fun a => h2 _) (fun a b => h3 _) (fun a => h4 _) (fun a => h5 _) (fun k => h0 _) (fun k => h0 _)]
  rfl

end Cert.ReferenceValue

end
-- ==== Proof.lean ====
/-
  A leapfrog integrator of a learned Hamiltonian. Each batch row carries (q, p), started at q₀ = x[·,15,·] and
  p₀ = x[·,15,·] − x[·,14,·]; the Hamiltonian is the two-layer tanh network H(s) = tanh(tanh(s·W1 + b1)·W2 + b2)·wo, and
  three leapfrog steps  p ← p − (dt/2)·∂H/∂q, q ← q + dt·∂H/∂p, p ← p − (dt/2)·∂H/∂q  give the result row (q, p).

  The kernel computes ∂H/∂s by hand back-propagation, with the tanh derivative written 1 − h²; the reference
  differentiates automatically, which writes the same derivative as a·(1 − h) + a·(1 − h)·h with the cotangent 1·wo, and
  negates with −x where the kernel writes 0 − x. On the extended reals these are the same only where every value is a real
  number, which is what the precondition gives: finite arguments keep every sum of products, every tanh and every update
  finite (Proof/LeapfrogAlgebra.lean). Both programs act row by row (Proof/KernelRows.lean, Proof/ReferenceRows.lean):
  the kernel's 64 blocks of 1024 rows tile the batch (Proof/KernelValue.lean), and the reference's array operations
  read row R from row R (Proof/ReferenceValue.lean). Neither program writes its arguments; the idealized kernel is the
  kernel's own text read over the extended reals.
-/
import proofs.«151128_j2671469658242_1_alg».proof.Defs
import proofs.«151128_j2671469658242_1_alg».proof.Proof.Gen.Kernel
import proofs.«151128_j2671469658242_1_alg».proof.Proof.Gen.Kernel.Skeleton
import proofs.«151128_j2671469658242_1_alg».proof.Proof.Gen.Kernel.Launch
import proofs.«151128_j2671469658242_1_alg».proof.Proof.Gen.Kernel.Points
import proofs.«151128_j2671469658242_1_alg».proof.Proof.Gen.Kernel.Frame
import proofs.«151128_j2671469658242_1_alg».proof.Proof.Gen.KernelIdeal
import proofs.«151128_j2671469658242_1_alg».proof.Proof.Gen.KernelIdeal.Skeleton
import proofs.«151128_j2671469658242_1_alg».proof.Proof.Gen.KernelIdeal.Launch
import proofs.«151128_j2671469658242_1_alg».proof.Proof.Gen.KernelIdeal.Points
import proofs.«151128_j2671469658242_1_alg».proof.Proof.Gen.KernelIdeal.Frame
import proofs.«151128_j2671469658242_1_alg».proof.Proof.Gen.ReferenceIdeal
import proofs.«151128_j2671469658242_1_alg».proof.Proof.Gen.Pre_finite_inputs
import proofs.«151128_j2671469658242_1_alg».proof.Proof.Gen.KernelIdeal.Value
import proofs.«151128_j2671469658242_1_alg».proof.Proof.Gen.ReferenceIdeal.Run
import proofs.«151128_j2671469658242_1_alg».proof.Proof.FiniteInputs
import proofs.«151128_j2671469658242_1_alg».proof.Proof.KernelValue
import proofs.«151128_j2671469658242_1_alg».proof.Proof.ReferenceValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the leapfrog rows of the batch: the kernel block by
    block, the reference array operation by array operation, the two spellings of the gradient equal because the
    arguments are finite. -/
theorem algebraic : Cert.algebraic_KernelIdeal_ReferenceIdeal := by
  intro m ρ m' ρ' hpre hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2, f3, f4, f5⟩ := Cert.FiniteInputs.isFin_of_pre _ _ _ _ _ _ (hpre c)
  obtain ⟨a0, a1, a2, a3, a4, a5⟩ := hagree c
  refine ((Cert.ReferenceIdeal.Value.val5_main_v211 _).symm.trans
    (Cert.ReferenceValue.result_eq m' c ?_ ?_ ?_ ?_ ?_ ?_)).trans ?_
  · rw [a0]; exact f0
  · rw [a1]; exact f1
  · rw [a2]; exact f2
  · rw [a3]; exact f3
  · rw [a4]; exact f4
  · rw [a5]; exact f5
  · unfold Cert.ReferenceValue.result Cert.KernelValue.result
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
